-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : IVec S8192 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  main_v3
-- ==== Kernel.lean ====
abbrev S8192x128 : Shape := ⟨2, ![8192, 128]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S1024x128 : Shape := ⟨2, ![1024, 128]⟩
abbrev S512x128 : Shape := ⟨2, ![512, 128]⟩
abbrev S1024x1 : Shape := ⟨2, ![1024, 1]⟩
abbrev S1x512 : Shape := ⟨2, ![1, 512]⟩
abbrev S1024x512 : Shape := ⟨2, ![1024, 512]⟩
abbrev S1024 : Shape := ⟨1, ![1024]⟩

abbrev nBuf : Space → Nat
  | .hbm => 14
  | .vmem => 16
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .i32⟩
  | .hbm, ⟨6, _⟩ => ⟨S1x8192, .i32⟩
  | .hbm, ⟨7, _⟩ => ⟨S8192x1, .f32⟩
  | .hbm, ⟨8, _⟩ => ⟨S1x8192, .f32⟩
  | .hbm, ⟨9, _⟩ => ⟨S8192x1, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S1024x128, .f32⟩
  | .local _ .vmem, ⟨1, _⟩ => ⟨S1024x128, .f32⟩
  | .local _ .vmem, ⟨2, _⟩ => ⟨S512x128, .f32⟩
  | .local _ .vmem, ⟨3, _⟩ => ⟨S512x128, .f32⟩
  | .local _ .vmem, ⟨4, _⟩ => ⟨S1024x1, .i32⟩
  | .local _ .vmem, ⟨5, _⟩ => ⟨S1024x1, .i32⟩
  | .local _ .vmem, ⟨6, _⟩ => ⟨S1x512, .i32⟩
  | .local _ .vmem, ⟨7, _⟩ => ⟨S1x512, .i32⟩
  | .local _ .vmem, ⟨8, _⟩ => ⟨S1024x1, .f32⟩
  | .local _ .vmem, ⟨9, _⟩ => ⟨S1024x1, .f32⟩
  | .local _ .vmem, ⟨10, _⟩ => ⟨S1x512, .f32⟩
  | .local _ .vmem, ⟨11, _⟩ => ⟨S1x512, .f32⟩
  | .local _ .vmem, ⟨12, _⟩ => ⟨S1024x1, .f32⟩
  | .local _ .vmem, ⟨13, _⟩ => ⟨S1024x1, .f32⟩
  | .local _ .vmem, ⟨14, _⟩ => ⟨S1024x1, .f32⟩
  | .local _ .vmem, ⟨15, _⟩ => ⟨S1024x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v52 : BitVec 1 := Scalar.cmpi .eq arg1 c15_i32
  let v53 : BitVec 32 := Scalar.extui v52
  let c0_i32_29 : BitVec 32 := 0#32
  let v54 : BitVec 1 := Scalar.cmpi .ne v53 c0_i32_29
  v54

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  reducesTo_S8192x128_S8192_d1 : S8192x128.ReducesTo [1] S8192
  h_S_ : 0 < S_.numel
  shapeCasts_S8192_S8192x1 : S8192.ShapeCasts S8192x1
  shapeCasts_S8192_S1x8192 : S8192.ShapeCasts S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1024x1_S1024x512 : S1024x1.Broadcasts S1024x512
  broadcasts_S1x512_S1024x512 : S1x512.Broadcasts S1024x512
  reduces_S1024x512_S1024 : S1024x512.Reduces [1] S1024
  shapeCasts_S1024_S1024x1 : S1024.ShapeCasts S1024x1
  reducesTo_S8192x1_S_d0_1 : S8192x1.ReducesTo [0, 1] S_
  dot_S1024x128_S512x128_S1024x512_1_1_0_0_n_n_wf : DotDims.WF S1024x128 S512x128 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S8192x128.size a
  hwx0_1 : ∀ i : grid0.Coords, EltTy.bits .f32 = 32 ∨ (Rect.block (s := S8192x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .i32 = 32 ∨ (Rect.block (s := S8192x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x8192.size a
  hwx0_3 : ∀ i : grid0.Coords, EltTy.bits .i32 = 32 ∨ (Rect.block (s := S1x8192) S1x512.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x8192.size a
  hwx0_5 : ∀ i : grid0.Coords, EltTy.bits .f32 = 32 ∨ (Rect.block (s := S1x8192) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1.size a ≤ S8192x1.size a
  hwx0_6 : ∀ i : grid0.Coords, EltTy.bits .f32 = 32 ∨ (Rect.block (s := S8192x1) S1024x1.size (cc0_transform_6 i) (hinb0_6 i)).WholeWords (EltTy.packing .f32)

variable [Facts₀]

def dot_S1024x128_S512x128_S1024x512_1_1_0_0_n_n : DotDims S1024x128 S512x128 S1024x512 where
  lhsContracting := [1]
  rhsContracting := [1]
  lhsNonContracting := [0]
  rhsNonContracting := [0]
  lhsBatch := []
  rhsBatch := []
  wf := dot_S1024x128_S512x128_S1024x512_1_1_0_0_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1024x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1024x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S8192x128 : Shape := ⟨2, ![8192, 128]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S128x8192 : Shape := ⟨2, ![128, 8192]⟩

abbrev nBuf : Space → Nat
  | .hbm => 59
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S1x8192, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S128x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .i1⟩
  | .hbm, ⟨22, _⟩ => ⟨S_, .f32⟩
  | .hbm, ⟨23, _⟩ => ⟨S_, .f32⟩
  | .hbm, ⟨24, _⟩ => ⟨S8192x8192, .f32⟩
  | .hbm, ⟨25, _⟩ => ⟨S8192x8192, .f32⟩
  | .hbm, ⟨26, _⟩ => ⟨S8192x8192, .f32⟩
  | .hbm, ⟨27, _⟩ => ⟨S_, .f32⟩
  | .hbm, ⟨28, _⟩ => ⟨S_, .f32⟩
  | .hbm, ⟨29, _⟩ => ⟨S8192x8192, .f32⟩
  | .hbm, ⟨30, _⟩ => ⟨S8192x8192, .f32⟩
  | .hbm, ⟨31, _⟩ => ⟨S8192x1, .i32⟩
  | .hbm, ⟨32, _⟩ => ⟨S1x8192, .i32⟩
  | .hbm, ⟨33, _⟩ => ⟨S8192x8192, .i32⟩
  | .hbm, ⟨34, _⟩ => ⟨S8192x8192, .i32⟩
  | .hbm, ⟨35, _⟩ => ⟨S8192x8192, .i1⟩
  | .hbm, ⟨36, _⟩ => ⟨S_, .f32⟩
  | .hbm, ⟨37, _⟩ => ⟨S_, .f32⟩
  | .hbm, ⟨38, _⟩ => ⟨S8192x8192, .f32⟩
  | .hbm, ⟨39, _⟩ => ⟨S8192x8192, .f32⟩
  | .hbm, ⟨40, _⟩ => ⟨S_, .f32⟩
  | .hbm, ⟨41, _⟩ => ⟨S8192, .f32⟩
  | .hbm, ⟨42, _⟩ => ⟨S_, .f32⟩
  | .hbm, ⟨43, _⟩ => ⟨S_, .f32⟩
  | .hbm, ⟨44, _⟩ => ⟨S8192x8192, .f32⟩
  | .hbm, ⟨45, _⟩ => ⟨S8192x8192, .f32⟩
  | .hbm, ⟨46, _⟩ => ⟨S_, .f32⟩
  | .hbm, ⟨47, _⟩ => ⟨S8192, .f32⟩
  | .hbm, ⟨48, _⟩ => ⟨S8192, .f32⟩
  | .hbm, ⟨49, _⟩ => ⟨S_, .f32⟩
  | .hbm, ⟨50, _⟩ => ⟨S8192, .f32⟩
  | .hbm, ⟨51, _⟩ => ⟨S8192, .f32⟩
  | .hbm, ⟨52, _⟩ => ⟨S_, .f32⟩
  | .hbm, ⟨53, _⟩ => ⟨S8192, .f32⟩
  | .hbm, ⟨54, _⟩ => ⟨S8192, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_call1_v0 : Ref sig .tc := ⟨.hbm, 28, rfl⟩
abbrev main_call1_v1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_call2_v0 : Ref sig .tc := ⟨.hbm, 37, rfl⟩
abbrev main_call2_v1 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_cst_7 : Ref sig .tc := ⟨.hbm, 42, rfl⟩
abbrev main_call3_v0 : Ref sig .tc := ⟨.hbm, 43, rfl⟩
abbrev main_call3_v1 : Ref sig .tc := ⟨.hbm, 44, rfl⟩
abbrev main_v26 : Ref sig .tc := ⟨.hbm, 45, rfl⟩
abbrev main_cst_8 : Ref sig .tc := ⟨.hbm, 46, rfl⟩
abbrev main_v27 : Ref sig .tc := ⟨.hbm, 47, rfl⟩
abbrev main_v28 : Ref sig .tc := ⟨.hbm, 48, rfl⟩
abbrev main_cst_9 : Ref sig .tc := ⟨.hbm, 49, rfl⟩
abbrev main_v29 : Ref sig .tc := ⟨.hbm, 50, rfl⟩
abbrev main_v30 : Ref sig .tc := ⟨.hbm, 51, rfl⟩
abbrev main_call4_cst : Ref sig .tc := ⟨.hbm, 52, rfl⟩
abbrev main_call4_v0 : Ref sig .tc := ⟨.hbm, 53, rfl⟩
abbrev main_v31 : Ref sig .tc := ⟨.hbm, 54, rfl⟩
abbrev main_cst_10 : Ref sig .tc := ⟨.hbm, 55, rfl⟩
abbrev main_v32 : Ref sig .tc := ⟨.hbm, 56, rfl⟩
abbrev main_cst_11 : Ref sig .tc := ⟨.hbm, 57, rfl⟩
abbrev main_v33 : Ref sig .tc := ⟨.hbm, 58, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x128_S128x8192_1_0 : S8192x128.Transposes [1, 0] S128x8192
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.KB.Data.lean ====
/-
  The proof data of the one pallas_call. The grid is 8 row tiles by 16 column tiles, walked row tile by row tile;
  point t is row tile t / 16, column tile t % 16. Two scratch columns carry, for the 1024 rows of the current row
  tile, the running maximum of the same-label distances and the running minimum of the other-label distances over the
  column tiles seen so far: reset at column tile 0, folded with the tile's row maximum / row minimum at every column
  tile, and turned into the row's hinge loss, written to the output block, at column tile 15.
  Windows 0 and 1 both stage blocks of the first argument (row-tile rows and column-tile rows of the same matrix), so
  the pipeline holds that array at two half shares, one per window.
-/
import proofs.«182006_j26680336843539_1_alg».proof.Proof.Gen.Kernel.Launch
import proofs.«182006_j26680336843539_1_alg».proof.Proof.Gen.Kernel.Skeleton
import proofs.«182006_j26680336843539_1_alg».proof.Proof.Gen.Kernel.Points
import Idealize.ShloMosaic.Lib.Pipeline.FrameBody
import Idealize.ShloMosaic.Lib.Pipeline.Frame
import Idealize.ShloMosaic.Lib.Pipeline.Regions
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The buffers when the region is entered -/

/-- Core `c`'s unscoped buffers at launch, as a valuation; -/
abbrev V0 (c : Dev nD) : Valuation τ sig (Elt F) := fun b => m (c, b)
/-- after the seven host operations before the region (the squared row norms and the four reshapes); -/
abbrev V1 (c : Dev nD) : Valuation τ sig (Elt F) := StableHlo.after hostOps0 (V0 m c)
/-- and the latter read at a TensorCore reference. -/
abbrev V (c : Dev nD) (b : Ref sig .tc) : Buf (Elt F) ((c : Thread nD τ).loc b) := V1 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The six input blocks at a point, at their literal types: the row tile's 1024 rows of the matrix, the column
    tile's 512 rows of it, the row tile's labels (a column), the column tile's labels (a row), the row tile's squared
    norms (a column), the column tile's squared norms (a row). -/
abbrev bXi (c : Dev nD) (t : Fin cfg0.N) : Vec F S1024x128 .f32 := iblk m c 0 t
abbrev bXj (c : Dev nD) (t : Fin cfg0.N) : Vec F S512x128 .f32 := iblk m c 1 t
abbrev bTr (c : Dev nD) (t : Fin cfg0.N) : Vec F S1024x1 .i32 := iblk m c 2 t
abbrev bTc (c : Dev nD) (t : Fin cfg0.N) : Vec F S1x512 .i32 := iblk m c 3 t
abbrev bSr (c : Dev nD) (t : Fin cfg0.N) : Vec F S1024x1 .f32 := iblk m c 4 t
abbrev bSc (c : Dev nD) (t : Fin cfg0.N) : Vec F S1x512 .f32 := iblk m c 5 t

/-! ## The two accumulators, point by point -/

/-- One column tile folded into the pair (running maximum, running minimum): the tile's same-label distances' row
    maxima joined to the first, its other-label distances' row minima met with the second. -/
def accStep (c : Dev nD) (t : Fin cfg0.N) (p : Vec F S1024x1 .f32 × Vec F S1024x1 .f32) : Vec F S1024x1 .f32 × Vec F S1024x1 .f32 :=
  (k0_pay1 (k0_pay8 (bXi m c t) (bXj m c t) (bSr m c t) (bSc m c t) (bTr m c t) (bTc m c t)) p.1,
   k0_pay2 (k0_pay6 (bXi m c t) (bXj m c t) (bSr m c t) (bSc m c t)) (k0_pay7 (bTr m c t) (bTc m c t)) p.2)

/-- The accumulators' reset values: every row at minus infinity, every row at plus infinity. -/
abbrev accReset : Vec F S1024x1 .f32 × Vec F S1024x1 .f32 := (k0_pay4 (F := F), k0_pay5 (F := F))

/-- The pair after point `n`: at column tile 0 the tile folded into the reset pair, elsewhere into what the point
    before left. -/
def accAfter (c : Dev nD) : (n : ℕ) → n < cfg0.N → Vec F S1024x1 .f32 × Vec F S1024x1 .f32
  | 0, h => accStep m c ⟨0, h⟩ accReset
  | n + 1, h => accStep m c ⟨n + 1, h⟩ (if (n + 1) % 16 = 0 then accReset else accAfter c n (Nat.lt_of_succ_lt h))

theorem accAfter_first (c : Dev nD) (n : ℕ) (h : n < cfg0.N) (h0 : n % 16 = 0) :
    accAfter m c n h = accStep m c ⟨n, h⟩ accReset := by
  cases n with
  | zero => rfl
  | succ n =>
    show accStep m c ⟨n + 1, h⟩ (if (n + 1) % 16 = 0 then accReset else accAfter m c n (Nat.lt_of_succ_lt h)) = _
    rw [if_pos h0]

theorem accAfter_next (c : Dev nD) (n : ℕ) (h : n < cfg0.N) (h0 : n % 16 ≠ 0) :
    accAfter m c n h = accStep m c ⟨n, h⟩ (accAfter m c (n - 1) (by omega)) := by
  cases n with
  | zero => exact absurd rfl h0
  | succ n =>
    show accStep m c ⟨n + 1, h⟩ (if (n + 1) % 16 = 0 then accReset else accAfter m c n (Nat.lt_of_succ_lt h)) = _
    rw [if_neg h0]; rfl

/-- What the last column tile's point writes to the output block: per row, the hinge of (running maximum minus running
    minimum plus the margin). Stated at every point; only the points of column tile 15 store it. -/
def outAt (c : Dev nD) (t : Fin cfg0.N) : Vec F S1024x1 .f32 :=
  k0_pay3 (accAfter m c t.val t.isLt).1 (accAfter m c t.val t.isLt).2

/-- The host operations after the region, as one function of the output array: the sum of its 8192 losses from zero,
    divided by the count. -/
def tailVal (o : Vec F S8192x1 .f32) : FVec F S_ .f32 :=
  Host.divf (Host.reduceAdd o (constant S_ .f32 0x00000000#32) reducesTo_S8192x1_S_d0_1 h_S_) (constant S_ .f32 0x46000000#32)

/-! ## The invariant: the scratch columns at the accumulators -/

/-- The scratch operands, whole scoped buffers of the kernel's own. -/
abbrev scr0 : Memref sig .tc .vmem S1024x1 .f32 := Memref.whole cc0_scratch0
abbrev scr1 : Memref sig .tc .vmem S1024x1 .f32 := Memref.whole cc0_scratch1

/-- Before the first point the scratch columns hold anything; after point `n` they hold the pair `accAfter n`. The
    generator register rides along at some state. -/
def PhiS (c : Dev nD) : (n : ℕ) → n ≤ cfg0.N → sProp 𝕄
  | 0, _ => Pipeline.ΦA spec0 c
  | n + 1, h => iprop(owns (c : Thread nD τ) scr0 fullShare (accAfter m c n h).1 ∗ owns (c : Thread nD τ) scr1 fullShare (accAfter m c n h).2 ∗ (∃ r, prngReg c r))

theorem PhiS_zero (c : Dev nD) (h : 0 ≤ cfg0.N) : PhiS m c 0 h = Pipeline.ΦA spec0 c := rfl

theorem PhiS_succ (c : Dev nD) (n : ℕ) (hn : n < cfg0.N) :
    PhiS m c (n + 1) hn = iprop(owns (c : Thread nD τ) scr0 fullShare (accAfter m c n hn).1 ∗ owns (c : Thread nD τ) scr1 fullShare (accAfter m c n hn).2 ∗ (∃ r, prngReg c r)) := rfl

theorem PhiS_pos (c : Dev nD) (n : ℕ) (h : n ≤ cfg0.N) (hz : n ≠ 0) :
    PhiS m c n h = iprop(owns (c : Thread nD τ) scr0 fullShare (accAfter m c (n - 1) (by omega)).1 ∗ owns (c : Thread nD τ) scr1 fullShare (accAfter m c (n - 1) (by omega)).2 ∗ (∃ r, prngReg c r)) := by
  cases n with
  | zero => exact absurd rfl hz
  | succ n => rfl

/-- The class invariant with the two scratch columns listed. -/
theorem PhiA_eq (c : Dev nD) :
    (Pipeline.ΦA spec0 c : sProp 𝕄)
      = iprop(((∃ d, owns (c : Thread nD τ) scr0 fullShare d) ∗ (∃ d, owns (c : Thread nD τ) scr1 fullShare d)) ∗ (∃ r, prngReg c r)) := by
  unfold Pipeline.ΦA; rw [scopedRest0_eq]; simp only [scr0, scr1, owns_whole]; try rfl

/-! ## The proof data -/

/-- On core `c`: the arrays as the region finds them; after the body each input's buffer at its block and the output's
    at `outAt`; the scratch invariant; nothing owed; the first argument's array at a half share for each of the two
    windows that stage it, every other input array outright. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = outAt m c t := by dsimp only [dats]

/-- Each input's current staging buffer holds its block at every point, fetched there or not: an input the body only
    reads keeps its block, and where it is not refetched its block index has not moved. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)

/-! ## The body's two branches over the grid, and where the output window is idle -/

/-- The first branch (reset the accumulators) is taken at column tile 0; -/
abbrev condFirst (i : grid0.Coords) : Prop := (Scalar.cmpi .ne (Scalar.extui (Scalar.cmpi .eq (BitVec.ofNat 32 (i 1).val) 0#32)) 0#32) = 1#1
theorem hcondFirst : ∀ t : Fin cfg0.N, condFirst (grid0.coords t) ↔ t.val % 16 = 0 :=
  (by decide +kernel : ∀ t : Fin grid0.N, condFirst (grid0.coords t) ↔ t.val % 16 = 0)
/-- the second (write the losses out) at column tile 15. -/
abbrev condLast (i : grid0.Coords) : Prop := k0_cond2 i = 1#1
theorem hcondLast : ∀ t : Fin cfg0.N, condLast (grid0.coords t) ↔ t.val % 16 = 15 :=
  (by decide +kernel : ∀ t : Fin grid0.N, condLast (grid0.coords t) ↔ t.val % 16 = 15)

/-- The output window is idle, and not written back, wherever the second branch is not taken; live where it is. -/
theorem idle_6 : ∀ t : Fin cfg0.N, ¬ condLast (grid0.coords t) → cfg0.idle 6 (grid0.coords t) = true := by decide +kernel
theorem noFlush_6 : ∀ t : Fin cfg0.N, ¬ condLast (grid0.coords t) → (cfg0.win 6).flush t = false := by decide +kernel
theorem live_6 : ∀ t : Fin cfg0.N, condLast (grid0.coords t) → cfg0.idle 6 (grid0.coords t) = false := by decide +kernel

end Cert.Kernel.Hand

end
-- ==== Proof.KB.Run.lean ====
/-
  The kernel body on any whole staging and scratch memrefs, in its three control cases. With the six input blocks
  x0 (row tile's rows), x1 (column tile's rows), tr / tc (labels), sr / sc (squared norms) in their buffers:
  * at column tile 0 the two scratch columns, whatever they held, end at the tile folded into the reset pair;
  * at a middle column tile they end at the tile folded into what they held;
  * at column tile 15 likewise, and the output buffer, whatever it held, ends at the rows' hinge losses of the two
    scratch columns just stored.
  The input buffers are handed back as found. Each case is the symbolic run of the body's loads and stores; a stored
  column is read back through its one whole-buffer store.
-/
import proofs.«182006_j26680336843539_1_alg».proof.Proof.Gen.Kernel.Launch
import proofs.«182006_j26680336843539_1_alg».proof.Proof.Gen.Kernel.Skeleton
import proofs.«182006_j26680336843539_1_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

/-- The offsets of every load and store of the body: the buffer's origin. -/
theorem zeroOff : (![0, 0] : Fin 2 → ℕ) = fun _ => 0 := by funext a; fin_cases a <;> rfl

/-- The first branch's condition (column tile 0) and the second's (column tile 15), over the grid coordinates. -/
abbrev runFirst (i : grid0.Coords) : Prop := (Scalar.cmpi .ne (Scalar.extui (Scalar.cmpi .eq (BitVec.ofNat 32 (i 1).val) 0#32)) 0#32) = 1#1
abbrev runLast (i : grid0.Coords) : Prop := k0_cond2 i = 1#1

set_option maxHeartbeats 1000000 in
/-- Column tile 0: reset, then fold the tile in. -/
theorem run_first (c : Dev nD) (i : grid0.Coords)
    (arg2 : Memref sig .tc .vmem S1024x128 .f32) (harg2 : arg2.IsWhole) (arg3 : Memref sig .tc .vmem S512x128 .f32) (harg3 : arg3.IsWhole)
    (arg4 : Memref sig .tc .vmem S1024x1 .i32) (harg4 : arg4.IsWhole) (arg5 : Memref sig .tc .vmem S1x512 .i32) (harg5 : arg5.IsWhole)
    (arg6 : Memref sig .tc .vmem S1024x1 .f32) (harg6 : arg6.IsWhole) (arg7 : Memref sig .tc .vmem S1x512 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : runFirst i) (hc1 : ¬ runLast i)
    (x0 : Vec F S1024x128 .f32) (x1 : Vec F S512x128 .f32) (tr : Vec F S1024x1 .i32) (tc : Vec F S1x512 .i32)
    (sr : Vec F S1024x1 .f32) (sc : Vec F S1x512 .f32) (E : Set ℕ) (K : PUnit → sProp 𝕄) :
    iprop(owns (c : Thread nD τ) arg2 fullShare x0 ∗ owns (c : Thread nD τ) arg3 fullShare x1
        ∗ owns (c : Thread nD τ) arg4 fullShare tr ∗ owns (c : Thread nD τ) arg5 fullShare tc
        ∗ owns (c : Thread nD τ) arg6 fullShare sr ∗ owns (c : Thread nD τ) arg7 fullShare sc
        ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1
        ∗ owns (c : Thread nD τ) arg4 fullShare tr ∗ owns (c : Thread nD τ) arg5 fullShare tc
        ∗ owns (c : Thread nD τ) arg6 fullShare sr ∗ owns (c : Thread nD τ) arg7 fullShare sc
            ∗ owns (c : Thread nD τ) arg9 fullShare (k0_pay1 (k0_pay8 x0 x1 sr sc tr tc) (k0_pay4 (F := F)))
            ∗ owns (c : Thread nD τ) arg10 fullShare (k0_pay2 (k0_pay6 x0 x1 sr sc) (k0_pay7 tr tc) (k0_pay5 (F := F)))) -∗ K ⟨⟩))
      ⊢ wp frame (wpE (defs₀ (F := F)) Variants.none c none) E
          (cc0__triplet_kernel i arg2 harg2 arg3 harg3 arg4 harg4 arg5 harg5 arg6 harg6 arg7 harg7 arg8 harg8 arg9 harg9 arg10 harg10) K := by
  simp only [cc0__triplet_kernel_eq_skeleton]; unfold cc0__triplet_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d9, %f9, -, H9⟩, ⟨%d10, %f10, -, H10⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H9]
  · iexists _; isplitr; swap; · iexact H9
    ipureintro
    try sl_unfold_words
    rw [View.read_writes_eq_canon _ _ _ (fun y => ⟨_, List.mem_cons_self .., View.mem_set_unit_zero zeroOff Gen.inb_S1024x1_S1024x1_0_0 y⟩)]
    rw [View.canon_cons_unit_zero (S := S1024x1) zeroOff]
    simp only [View.readAt_eq_ld, Memref.IsWhole.read_unread, View.ld_unit_zero (S := S1024x128) zeroOff, View.ld_unit_zero (S := S512x128) zeroOff,
      View.ld_unit_zero (S := S1024x1) zeroOff, View.ld_unit_zero (S := S1x512) zeroOff, View.readCov_unit_zero (S := S1024x1) _ zeroOff]
  · iexists _; isplitr; swap; · iexact H10
    ipureintro
    try sl_unfold_words
    rw [View.read_writes_eq_canon _ _ _ (fun y => ⟨_, List.mem_cons_self .., View.mem_set_unit_zero zeroOff Gen.inb_S1024x1_S1024x1_0_0 y⟩)]
    rw [View.canon_cons_unit_zero (S := S1024x1) zeroOff]
    simp only [View.readAt_eq_ld, Memref.IsWhole.read_unread, View.ld_unit_zero (S := S1024x128) zeroOff, View.ld_unit_zero (S := S512x128) zeroOff,
      View.ld_unit_zero (S := S1024x1) zeroOff, View.ld_unit_zero (S := S1x512) zeroOff, View.readCov_unit_zero (S := S1024x1) _ zeroOff]

set_option maxHeartbeats 1000000 in
/-- A middle column tile: fold the tile into what the scratch columns hold. -/
theorem run_mid (c : Dev nD) (i : grid0.Coords)
    (arg2 : Memref sig .tc .vmem S1024x128 .f32) (harg2 : arg2.IsWhole) (arg3 : Memref sig .tc .vmem S512x128 .f32) (harg3 : arg3.IsWhole)
    (arg4 : Memref sig .tc .vmem S1024x1 .i32) (harg4 : arg4.IsWhole) (arg5 : Memref sig .tc .vmem S1x512 .i32) (harg5 : arg5.IsWhole)
    (arg6 : Memref sig .tc .vmem S1024x1 .f32) (harg6 : arg6.IsWhole) (arg7 : Memref sig .tc .vmem S1x512 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : ¬ runFirst i) (hc1 : ¬ runLast i)
    (x0 : Vec F S1024x128 .f32) (x1 : Vec F S512x128 .f32) (tr : Vec F S1024x1 .i32) (tc : Vec F S1x512 .i32)
    (sr : Vec F S1024x1 .f32) (sc : Vec F S1x512 .f32) (s0 s1 : Vec F S1024x1 .f32) (E : Set ℕ) (K : PUnit → sProp 𝕄) :
    iprop(owns (c : Thread nD τ) arg2 fullShare x0 ∗ owns (c : Thread nD τ) arg3 fullShare x1
        ∗ owns (c : Thread nD τ) arg4 fullShare tr ∗ owns (c : Thread nD τ) arg5 fullShare tc
        ∗ owns (c : Thread nD τ) arg6 fullShare sr ∗ owns (c : Thread nD τ) arg7 fullShare sc
        ∗ owns (c : Thread nD τ) arg9 fullShare s0 ∗ owns (c : Thread nD τ) arg10 fullShare s1
        ∗ (iprop(owns (c : Thread nD τ) arg2 fullShare x0 ∗ owns (c : Thread nD τ) arg3 fullShare x1
        ∗ owns (c : Thread nD τ) arg4 fullShare tr ∗ owns (c : Thread nD τ) arg5 fullShare tc
        ∗ owns (c : Thread nD τ) arg6 fullShare sr ∗ owns (c : Thread nD τ) arg7 fullShare sc
            ∗ owns (c : Thread nD τ) arg9 fullShare (k0_pay1 (k0_pay8 x0 x1 sr sc tr tc) s0)
            ∗ owns (c : Thread nD τ) arg10 fullShare (k0_pay2 (k0_pay6 x0 x1 sr sc) (k0_pay7 tr tc) s1)) -∗ K ⟨⟩))
      ⊢ wp frame (wpE (defs₀ (F := F)) Variants.none c none) E
          (cc0__triplet_kernel i arg2 harg2 arg3 harg3 arg4 harg4 arg5 harg5 arg6 harg6 arg7 harg7 arg8 harg8 arg9 harg9 arg10 harg10) K := by
  simp only [cc0__triplet_kernel_eq_skeleton]; unfold cc0__triplet_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f9, %hf9, H9⟩, ⟨%f10, %hf10, H10⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg9.eq_unread hf9; obtain rfl := harg10.eq_unread hf10
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H9]
  · iexists _; isplitr; swap; · iexact H9
    ipureintro
    try sl_unfold_words
    rw [View.read_writes_eq_canon _ _ _ (fun y => ⟨_, List.mem_cons_self .., View.mem_set_unit_zero zeroOff Gen.inb_S1024x1_S1024x1_0_0 y⟩)]
    rw [View.canon_cons_unit_zero (S := S1024x1) zeroOff]
    simp only [View.readAt_eq_ld, Memref.IsWhole.read_unread, View.ld_unit_zero (S := S1024x128) zeroOff, View.ld_unit_zero (S := S512x128) zeroOff,
      View.ld_unit_zero (S := S1024x1) zeroOff, View.ld_unit_zero (S := S1x512) zeroOff, View.readCov_unit_zero (S := S1024x1) _ zeroOff]
  · iexists _; isplitr; swap; · iexact H10
    ipureintro
    try sl_unfold_words
    rw [View.read_writes_eq_canon _ _ _ (fun y => ⟨_, List.mem_cons_self .., View.mem_set_unit_zero zeroOff Gen.inb_S1024x1_S1024x1_0_0 y⟩)]
    rw [View.canon_cons_unit_zero (S := S1024x1) zeroOff]
    simp only [View.readAt_eq_ld, Memref.IsWhole.read_unread, View.ld_unit_zero (S := S1024x128) zeroOff, View.ld_unit_zero (S := S512x128) zeroOff,
      View.ld_unit_zero (S := S1024x1) zeroOff, View.ld_unit_zero (S := S1x512) zeroOff, View.readCov_unit_zero (S := S1024x1) _ zeroOff]

set_option maxHeartbeats 1000000 in
/-- Column tile 15: fold the tile in, then write the rows' hinge losses to the output buffer. -/
theorem run_last (c : Dev nD) (i : grid0.Coords)
    (arg2 : Memref sig .tc .vmem S1024x128 .f32) (harg2 : arg2.IsWhole) (arg3 : Memref sig .tc .vmem S512x128 .f32) (harg3 : arg3.IsWhole)
    (arg4 : Memref sig .tc .vmem S1024x1 .i32) (harg4 : arg4.IsWhole) (arg5 : Memref sig .tc .vmem S1x512 .i32) (harg5 : arg5.IsWhole)
    (arg6 : Memref sig .tc .vmem S1024x1 .f32) (harg6 : arg6.IsWhole) (arg7 : Memref sig .tc .vmem S1x512 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : ¬ runFirst i) (hc1 : runLast i)
    (x0 : Vec F S1024x128 .f32) (x1 : Vec F S512x128 .f32) (tr : Vec F S1024x1 .i32) (tc : Vec F S1x512 .i32)
    (sr : Vec F S1024x1 .f32) (sc : Vec F S1x512 .f32) (s0 s1 : Vec F S1024x1 .f32) (E : Set ℕ) (K : PUnit → sProp 𝕄) :
    iprop(owns (c : Thread nD τ) arg2 fullShare x0 ∗ owns (c : Thread nD τ) arg3 fullShare x1
        ∗ owns (c : Thread nD τ) arg4 fullShare tr ∗ owns (c : Thread nD τ) arg5 fullShare tc
        ∗ owns (c : Thread nD τ) arg6 fullShare sr ∗ owns (c : Thread nD τ) arg7 fullShare sc
        ∗ (∃ d, owns (c : Thread nD τ) arg8 fullShare d)
        ∗ owns (c : Thread nD τ) arg9 fullShare s0 ∗ owns (c : Thread nD τ) arg10 fullShare s1
        ∗ (iprop(owns (c : Thread nD τ) arg2 fullShare x0 ∗ owns (c : Thread nD τ) arg3 fullShare x1
        ∗ owns (c : Thread nD τ) arg4 fullShare tr ∗ owns (c : Thread nD τ) arg5 fullShare tc
        ∗ owns (c : Thread nD τ) arg6 fullShare sr ∗ owns (c : Thread nD τ) arg7 fullShare sc
            ∗ owns (c : Thread nD τ) arg8 fullShare (k0_pay3 (k0_pay1 (k0_pay8 x0 x1 sr sc tr tc) s0) (k0_pay2 (k0_pay6 x0 x1 sr sc) (k0_pay7 tr tc) s1))
            ∗ owns (c : Thread nD τ) arg9 fullShare (k0_pay1 (k0_pay8 x0 x1 sr sc tr tc) s0)
            ∗ owns (c : Thread nD τ) arg10 fullShare (k0_pay2 (k0_pay6 x0 x1 sr sc) (k0_pay7 tr tc) s1)) -∗ K ⟨⟩))
      ⊢ wp frame (wpE (defs₀ (F := F)) Variants.none c none) E
          (cc0__triplet_kernel i arg2 harg2 arg3 harg3 arg4 harg4 arg5 harg5 arg6 harg6 arg7 harg7 arg8 harg8 arg9 harg9 arg10 harg10) K := by
  simp only [cc0__triplet_kernel_eq_skeleton]; unfold cc0__triplet_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg9.eq_unread hf9; obtain rfl := harg10.eq_unread hf10
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; swap; · iexact H8
    ipureintro
    try sl_unfold_words
    rw [View.read_writes_eq_canon _ _ _ (fun y => ⟨_, List.mem_cons_self .., View.mem_set_unit_zero zeroOff Gen.inb_S1024x1_S1024x1_0_0 y⟩)]
    rw [View.canon_cons_unit_zero (S := S1024x1) zeroOff]
    simp only [View.readAt_eq_ld, Memref.IsWhole.read_unread, View.ld_unit_zero (S := S1024x128) zeroOff, View.ld_unit_zero (S := S512x128) zeroOff,
      View.ld_unit_zero (S := S1024x1) zeroOff, View.ld_unit_zero (S := S1x512) zeroOff, View.readCov_unit_zero (S := S1024x1) _ zeroOff]
  isplitl [H9]
  · iexists _; isplitr; swap; · iexact H9
    ipureintro
    try sl_unfold_words
    rw [View.read_writes_eq_canon _ _ _ (fun y => ⟨_, List.mem_cons_self .., View.mem_set_unit_zero zeroOff Gen.inb_S1024x1_S1024x1_0_0 y⟩)]
    rw [View.canon_cons_unit_zero (S := S1024x1) zeroOff]
    simp only [View.readAt_eq_ld, Memref.IsWhole.read_unread, View.ld_unit_zero (S := S1024x128) zeroOff, View.ld_unit_zero (S := S512x128) zeroOff,
      View.ld_unit_zero (S := S1024x1) zeroOff, View.ld_unit_zero (S := S1x512) zeroOff, View.readCov_unit_zero (S := S1024x1) _ zeroOff]
  · iexists _; isplitr; swap; · iexact H10
    ipureintro
    try sl_unfold_words
    rw [View.read_writes_eq_canon _ _ _ (fun y => ⟨_, List.mem_cons_self .., View.mem_set_unit_zero zeroOff Gen.inb_S1024x1_S1024x1_0_0 y⟩)]
    rw [View.canon_cons_unit_zero (S := S1024x1) zeroOff]
    simp only [View.readAt_eq_ld, Memref.IsWhole.read_unread, View.ld_unit_zero (S := S1024x128) zeroOff, View.ld_unit_zero (S := S512x128) zeroOff,
      View.ld_unit_zero (S := S1024x1) zeroOff, View.ld_unit_zero (S := S1x512) zeroOff, View.readCov_unit_zero (S := S1024x1) _ zeroOff]

end Cert.Kernel.Hand

end
-- ==== Proof.KB.Oblig.lean ====
/-
  The body obligation of the pallas_call at a generic grid point. The six input windows' current buffers hold their
  blocks; the point is in one of three cases by its column tile (0, 1..14, 15), decided over the grid in closed form;
  the case's run of the body applies. The invariant hands the run the two scratch columns at what the point before
  left (at anything before the first point, where the body resets them) and takes them back at this point's pair; the
  output window's buffer is handed back untouched except at column tile 15, where it receives the row tile's losses.
-/
import proofs.«182006_j26680336843539_1_alg».proof.Proof.KB.Data
import proofs.«182006_j26680336843539_1_alg».proof.Proof.KB.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- Each window's current staging memref at point `t`, spelled as the pipeline passes it to the body. -/
abbrev ms0 (t : Fin cfg0.N) : Memref sig .tc .vmem S1024x128 .f32 := win0_0.stage (cfg0.slots t 0)
abbrev ms1 (t : Fin cfg0.N) : Memref sig .tc .vmem S512x128 .f32 := win0_1.stage (cfg0.slots t 1)
abbrev ms2 (t : Fin cfg0.N) : Memref sig .tc .vmem S1024x1 .i32 := win0_2.stage (cfg0.slots t 2)
abbrev ms3 (t : Fin cfg0.N) : Memref sig .tc .vmem S1x512 .i32 := win0_3.stage (cfg0.slots t 3)
abbrev ms4 (t : Fin cfg0.N) : Memref sig .tc .vmem S1024x1 .f32 := win0_4.stage (cfg0.slots t 4)
abbrev ms5 (t : Fin cfg0.N) : Memref sig .tc .vmem S1x512 .f32 := win0_5.stage (cfg0.slots t 5)
abbrev ms6 (t : Fin cfg0.N) : Memref sig .tc .vmem S1024x1 .f32 := win0_6.stage (cfg0.slots t 6)

/-- What the body is called with at point `t` (the obligation's precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t
    ∗ (dats m 0 c).leavesExact 6 t)

/-- The input windows are never idle: the body leaves each at its block. -/
theorem leaves_0 (c : Dev nD) (t : Fin cfg0.N) : (dats m 0 c).leavesExact 0 t = owns (c : Thread nD τ) (ms0 t) fullShare (iblk m c 0 t) := by
  unfold Dat.leavesExact; rw [show cfg0.idle 0 (cfg0.grid.coords t) = false from rfl, after_0]
theorem leaves_1 (c : Dev nD) (t : Fin cfg0.N) : (dats m 0 c).leavesExact 1 t = owns (c : Thread nD τ) (ms1 t) fullShare (iblk m c 1 t) := by
  unfold Dat.leavesExact; rw [show cfg0.idle 1 (cfg0.grid.coords t) = false from rfl, after_1]
theorem leaves_2 (c : Dev nD) (t : Fin cfg0.N) : (dats m 0 c).leavesExact 2 t = owns (c : Thread nD τ) (ms2 t) fullShare (iblk m c 2 t) := by
  unfold Dat.leavesExact; rw [show cfg0.idle 2 (cfg0.grid.coords t) = false from rfl, after_2]
theorem leaves_3 (c : Dev nD) (t : Fin cfg0.N) : (dats m 0 c).leavesExact 3 t = owns (c : Thread nD τ) (ms3 t) fullShare (iblk m c 3 t) := by
  unfold Dat.leavesExact; rw [show cfg0.idle 3 (cfg0.grid.coords t) = false from rfl, after_3]
theorem leaves_4 (c : Dev nD) (t : Fin cfg0.N) : (dats m 0 c).leavesExact 4 t = owns (c : Thread nD τ) (ms4 t) fullShare (iblk m c 4 t) := by
  unfold Dat.leavesExact; rw [show cfg0.idle 4 (cfg0.grid.coords t) = false from rfl, after_4]
theorem leaves_5 (c : Dev nD) (t : Fin cfg0.N) : (dats m 0 c).leavesExact 5 t = owns (c : Thread nD τ) (ms5 t) fullShare (iblk m c 5 t) := by
  unfold Dat.leavesExact; rw [show cfg0.idle 5 (cfg0.grid.coords t) = false from rfl, after_5]

/-- Before the first point the invariant is the class's (the scratch columns at anything). -/
theorem PhiS_at_zero (c : Dev nD) (n : ℕ) (h : n ≤ cfg0.N) (hz : n = 0) : PhiS m c n h = Pipeline.ΦA spec0 c := by
  subst hz; rfl

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [show (dats m 0 c).Φ t.succ = PhiS m c (t.val + 1) t.isLt from rfl, PhiS_succ]
  rw [leaves_0, leaves_1, leaves_2, leaves_3, leaves_4, leaves_5]
  have hN : t.val < 128 := lt_of_lt_of_eq t.isLt (show cfg0.N = 128 from N_0)
  by_cases h0 : t.val % 16 = 0
  · -- column tile 0
    have hl : ¬ t.val % 16 = 15 := by omega
    have hc0 : condFirst (grid0.coords t) := (hcondFirst t).mpr h0
    have hc1 : ¬ condLast (grid0.coords t) := fun h => hl ((hcondLast t).mp h)
    rw [Dat.leavesExact_idle (dats m 0 c) 6 t (idle_6 t hc1) (noFlush_6 t hc1)]
    rw [accAfter_first m c t.val t.isLt h0]
    unfold accStep accReset; dsimp only
    by_cases hz : t.val = 0
    · rw [PhiS_castSucc m c t, PhiS_at_zero m c _ _ hz, PhiA_eq]
      iintro ⟨⟨⟨HS0, HS1⟩, Hg⟩, Ho, ⟨%d0, H0⟩, ⟨%d1, H1⟩, ⟨%d2, H2⟩, ⟨%d3, H3⟩, ⟨%d4, H4⟩, ⟨%d5, H5⟩, H6⟩
      iapply (run_first c (grid0.coords t) _ _ _ _ _ _ _ _ _ _ _ _ _ _ _ _ _ _ hc0 hc1 (bXi m c t) (bXj m c t) (bTr m c t) (bTc m c t) (bSr m c t) (bSc m c t) Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1 Hg]
      · isplitl [HS0]; · iexact HS0
        isplitl [HS1]; · iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [PhiS_castSucc m c t, PhiS_pos m c _ _ hz]
      iintro ⟨⟨HS0, HS1, Hg⟩, Ho, ⟨%d0, H0⟩, ⟨%d1, H1⟩, ⟨%d2, H2⟩, ⟨%d3, H3⟩, ⟨%d4, H4⟩, ⟨%d5, H5⟩, H6⟩
      iapply (run_first c (grid0.coords t) _ _ _ _ _ _ _ _ _ _ _ _ _ _ _ _ _ _ hc0 hc1 (bXi m c t) (bXj m c t) (bTr m c t) (bTc m c t) (bSr m c t) (bSc m c t) Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      iintro ⟨H0, H1, H2, H3, H4, H5, HS0, HS1⟩
      isplitl [HS0 HS1 Hg]
      · isplitl [HS0]; · iexact HS0
        isplitl [HS1]; · iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
  · have hz : t.val ≠ 0 := fun e => h0 (by rw [e])
    have hc0 : ¬ condFirst (grid0.coords t) := fun h => h0 ((hcondFirst t).mp h)
    rw [accAfter_next m c t.val t.isLt h0]
    unfold accStep; dsimp only
    rw [PhiS_castSucc m c t, PhiS_pos m c _ _ hz]
    by_cases h1 : t.val % 16 = 15
    · -- column tile 15
      have hc1 : condLast (grid0.coords t) := (hcondLast t).mpr h1
      rw [show (dats m 0 c).leavesExact 6 t = owns (c : Thread nD τ) (ms6 t) fullShare ((dats m 0 c).after 6 t) from by
        unfold Dat.leavesExact; rw [live_6 t hc1], after_6]
      unfold outAt
      rw [accAfter_next m c t.val t.isLt h0]
      unfold accStep; dsimp only
      iintro ⟨⟨HS0, HS1, Hg⟩, Ho, ⟨%d0, H0⟩, ⟨%d1, H1⟩, ⟨%d2, H2⟩, ⟨%d3, H3⟩, ⟨%d4, H4⟩, ⟨%d5, H5⟩, ⟨%d6, H6⟩⟩
      iapply (run_last c (grid0.coords t) _ _ _ _ _ _ _ _ _ _ _ _ _ _ _ _ _ _ hc0 hc1 (bXi m c t) (bXj m c t) (bTr m c t) (bTc m c t) (bSr m c t) (bSc m c t)
        (accAfter m c (t.val - 1) (by omega)).1 (accAfter m c (t.val - 1) (by omega)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      iintro ⟨H0, H1, H2, H3, H4, H5, H6, HS0, HS1⟩
      isplitl [HS0 HS1 Hg]
      · isplitl [HS0]; · iexact HS0
        isplitl [HS1]; · iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · -- a middle column tile
      have hc1 : ¬ condLast (grid0.coords t) := fun h => h1 ((hcondLast t).mp h)
      rw [Dat.leavesExact_idle (dats m 0 c) 6 t (idle_6 t hc1) (noFlush_6 t hc1)]
      iintro ⟨⟨HS0, HS1, Hg⟩, Ho, ⟨%d0, H0⟩, ⟨%d1, H1⟩, ⟨%d2, H2⟩, ⟨%d3, H3⟩, ⟨%d4, H4⟩, ⟨%d5, H5⟩, H6⟩
      iapply (run_mid c (grid0.coords t) _ _ _ _ _ _ _ _ _ _ _ _ _ _ _ _ _ _ hc0 hc1 (bXi m c t) (bXj m c t) (bTr m c t) (bTc m c t) (bSr m c t) (bSc m c t)
        (accAfter m c (t.val - 1) (by omega)).1 (accAfter m c (t.val - 1) (by omega)).2 Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1 Hg]
      · isplitl [HS0]; · iexact HS0
        isplitl [HS1]; · iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point; -/
theorem hin (c : Dev nD) : Pipeline.ΦA spec0 c ⊢ (dats m 0 c).Φ 0 := by
  rw [show (dats m 0 c).Φ 0 = PhiS m c 0 (Nat.zero_le _) from rfl, PhiS_zero]

/-- and after the last point the invariant gives it back: the scratch columns' contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 128 := N_0; omega), PhiA_eq]
  iintro ⟨HS0, HS1, Hg⟩
  isplitl [HS0 HS1]
  · isplitl [HS0]
    · iexists _; iexact HS0
    · iexists _; iexact HS1
  iexact Hg

end Cert.Kernel.Hand

end
-- ==== Proof.KB.Launch.lean ====
/-
  The launch. @main is seven host operations, the pallas_call, four host operations; it runs as three segments over
  thread states "every unscoped buffer whole at a valuation, the core owing nothing, the generator register at some
  state". The region takes the arrays of its seven windows out of the unscoped buffers — the first argument's buffer,
  which two windows stage, split into two half shares, one per window — and puts them back at exit, the two halves
  rejoined (both windows only read it, so both end at the entry contents) and the output array at what the pipeline
  wrote back. Read at the end: the result is the host tail of the output array, and both arguments are as launched.
-/
import proofs.«182006_j26680336843539_1_alg».proof.Proof.KB.Oblig
import Idealize.ShloMosaic.Lib.Pipeline.Regions
import Idealize.ShloMosaic.Lib.Pipeline.Frame
import Idealize.ShloMosaic.Lib.StableHlo.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm

/-! ## What the host stretches write -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

abbrev hostOps0_W : List (Ref sig .tc) := [main_v0, main_cst, main_v1, main_v2, main_v3, main_v4, main_v5]
theorem hostOps0_writes : (hostOps0 : List (HloOp τ sig (Elt F))).Forall fun op => op.writes ⊆ (hostOps0_W.map (Proc.devRef (τ := τ) .tc)).toFinset := by
  simp only [List.Forall]
  refine ⟨?_, ?_, ?_, ?_, ?_, ?_, ?_⟩ <;>
    (simp only [StableHlo.nullary_writes, StableHlo.unary_writes, StableHlo.binary_writes, StableHlo.reshape_writes, Finset.singleton_subset_iff, List.mem_toFinset]; exact List.mem_map_of_mem (by decide))
abbrev hostOps1_W : List (Ref sig .tc) := [main_cst_0, main_v7, main_cst_1, main_v8]
theorem hostOps1_writes : (hostOps1 : List (HloOp τ sig (Elt F))).Forall fun op => op.writes ⊆ (hostOps1_W.map (Proc.devRef (τ := τ) .tc)).toFinset := by
  simp only [List.Forall]
  refine ⟨?_, ?_, ?_, ?_⟩ <;>
    (simp only [StableHlo.nullary_writes, StableHlo.unary_writes, StableHlo.binary_writes, StableHlo.reshape_writes, Finset.singleton_subset_iff, List.mem_toFinset]; exact List.mem_map_of_mem (by decide))

/-! ## The valuations between the segments -/

/-- After the region: the output array at what the pipeline wrote back, everything else as the region found it. -/
abbrev V2 (c : Dev nD) : Valuation τ sig (Elt F) := Function.update (V1 m c) main_v6 ((dats m 0 c).arrAt 6 cfg0.N)
/-- After the four host operations behind the region. -/
abbrev V3 (c : Dev nD) : Valuation τ sig (Elt F) := StableHlo.after hostOps1 (V2 m c)

theorem V1_of (c : Dev nD) (r : Ref sig .tc) (h : r ∉ hostOps0_W) : V1 m c r = V0 m c r :=
  StableHlo.after_of_writes_sub hostOps0 _ hostOps0_writes h
theorem V2_of (c : Dev nD) (r : Ref sig .tc) (h : r ∉ ([main_v6] : List (Ref sig .tc))) : V2 m c r = V1 m c r := by
  simp only [V2, Function.update_of_ne (StableHlo.devRef_ne_of_ne (List.ne_of_not_mem_cons h) : (Proc.devRef .tc r : DevRef τ sig) ≠ Proc.devRef .tc main_v6)]
theorem V3_of (c : Dev nD) (r : Ref sig .tc) (h : r ∉ hostOps1_W) : V3 m c r = V2 m c r :=
  StableHlo.after_of_writes_sub hostOps1 _ hostOps1_writes h

/-- The arguments reach the end as launched. -/
theorem V3_main_arg0 (c : Dev nD) : V3 m c main_arg0 = m ((c : Thread nD τ).loc main_arg0) :=
  (V3_of m c main_arg0 (by decide)).trans <| (V2_of m c main_arg0 (by decide)).trans <| (V1_of m c main_arg0 (by decide)).trans rfl
theorem V3_main_arg1 (c : Dev nD) : V3 m c main_arg1 = m ((c : Thread nD τ).loc main_arg1) :=
  (V3_of m c main_arg1 (by decide)).trans <| (V2_of m c main_arg1 (by decide)).trans <| (V1_of m c main_arg1 (by decide)).trans rfl

/-- The result is the host tail of the output array. -/
theorem V3_main_v8 (c : Dev nD) : V3 m c main_v8 = tailVal ((dats m 0 c).arrAt 6 cfg0.N) := by
  show StableHlo.after hostOps1 (V2 m c) (Proc.devRef .tc main_v8) = _
  after_results
  simp only [V2, Function.update_self]
  rfl

/-! ## The arrays at the region's two ends -/

/-- The buffers behind the windows' arrays, listed: six buffers for seven windows. -/
theorem arrBufs_eq (c : Dev nD) (W : (b : Ref sig .tc) → Buf (Elt F) ((c : Thread nD τ).loc b)) :
    (Pipeline.arrBufs spec0 c W : sProp 𝕄)
      = iprop((((c : Thread nD τ).loc main_arg0) ↦{fullShare} W main_arg0) ∗ (((c : Thread nD τ).loc main_v2) ↦{fullShare} W main_v2)
          ∗ (((c : Thread nD τ).loc main_v3) ↦{fullShare} W main_v3) ∗ (((c : Thread nD τ).loc main_v4) ↦{fullShare} W main_v4)
          ∗ (((c : Thread nD τ).loc main_v5) ↦{fullShare} W main_v5) ∗ (((c : Thread nD τ).loc main_v6) ↦{fullShare} W main_v6)) := by
  unfold Pipeline.arrBufs
  exact bigSep_eq_bigSepL_of_eq [main_arg0, main_v2, main_v3, main_v4, main_v5, main_v6] (by decide) (by decide) _

/-- The share each window's array is held at: a half of the first argument's buffer for each of windows 0 and 1. -/
theorem share_0 (c : Dev nD) : (dats m 0 c).share 0 = fullShare.left := by
  unfold Dat.share; rw [if_neg (by decide)]; dsimp only [dats]
theorem share_1 (c : Dev nD) : (dats m 0 c).share 1 = fullShare.right := by
  unfold Dat.share; rw [if_neg (by decide)]; dsimp only [dats]
theorem share_2 (c : Dev nD) : (dats m 0 c).share 2 = fullShare := by
  unfold Dat.share; rw [if_neg (by decide)]; dsimp only [dats]
theorem share_3 (c : Dev nD) : (dats m 0 c).share 3 = fullShare := by
  unfold Dat.share; rw [if_neg (by decide)]; dsimp only [dats]
theorem share_4 (c : Dev nD) : (dats m 0 c).share 4 = fullShare := by
  unfold Dat.share; rw [if_neg (by decide)]; dsimp only [dats]
theorem share_5 (c : Dev nD) : (dats m 0 c).share 5 = fullShare := by
  unfold Dat.share; rw [if_neg (by decide)]; dsimp only [dats]
theorem share_6 (c : Dev nD) : (dats m 0 c).share 6 = fullShare := by
  unfold Dat.share; rw [if_pos (by decide)]

/-- The pipeline's arrays, window by window: the first argument's buffer at a half share for each of windows 0 and 1. -/
theorem arrays_eq (c : Dev nD) (G : (w : Fin cfg0.W) → Buf (Elt F) ((cfg0.win w).arr.view.loc (c : Thread nD τ))) :
    ((dats m 0 c).arrays G : sProp 𝕄)
      = iprop((((c : Thread nD τ).loc main_arg0) ↦{fullShare.left} G 0) ∗ (((c : Thread nD τ).loc main_arg0) ↦{fullShare.right} G 1)
          ∗ (((c : Thread nD τ).loc main_v2) ↦{fullShare} G 2) ∗ (((c : Thread nD τ).loc main_v3) ↦{fullShare} G 3)
          ∗ (((c : Thread nD τ).loc main_v4) ↦{fullShare} G 4) ∗ (((c : Thread nD τ).loc main_v5) ↦{fullShare} G 5)
          ∗ (((c : Thread nD τ).loc main_v6) ↦{fullShare} G 6)) := by
  unfold Dat.arrays
  rw [bigSep_W0]
  rw [share_0, share_1, share_2, share_3, share_4, share_5, share_6]
  rw [(arr_whole0 0).set_eq_univ, (arr_whole0 2).set_eq_univ, (arr_whole0 3).set_eq_univ,
    (arr_whole0 4).set_eq_univ, (arr_whole0 5).set_eq_univ, (arr_whole0 6).set_eq_univ]

/-- An input window's array ends at the region-entry contents. -/
theorem arrAt_in_eq (c : Dev nD) (w : Fin cfg0.W) (hw : (cfg0.win w).isOut = false) (n : ℕ) :
    (dats m 0 c).arrAt w n = V m c (Pipeline.arrRef spec0 w) :=
  ((dats m 0 c).arrAt_in w hw n).trans (A_eq m c w)

/-- ENTRY: the buffers behind the arrays at the region-entry contents are the pipeline's arrays there. -/
theorem arrays_entry (c : Dev nD) :
    (Pipeline.arrBufs spec0 c (V m c) : sProp 𝕄) ⊢ (dats m 0 c).arrays ((dats m 0 c).arrAt · 0) := by
  rw [arrBufs_eq, arrays_eq]
  simp only [show ∀ w, (dats m 0 c).arrAt w 0 = V m c (Pipeline.arrRef spec0 w) from fun w => A_eq m c w]
  iintro ⟨H0, H2, H3, H4, H5, H6⟩
  ihave H0' := (pointsTo_share (PosShare.mem_left_op_right fullShare)).1 $$ H0
  icases H0' with ⟨Hl, Hr⟩
  isplitl [Hl]; · iexact Hl
  isplitl [Hr]; · iexact Hr
  isplitl [H2]; · iexact H2
  isplitl [H3]; · iexact H3
  isplitl [H4]; · iexact H4
  isplitl [H5]; · iexact H5
  iexact H6

/-- EXIT: the pipeline's arrays after the last point are the buffers behind them at the exit valuation. -/
theorem arrays_exit (c : Dev nD) :
    ((dats m 0 c).arrays ((dats m 0 c).arrAt · cfg0.N) : sProp 𝕄) ⊢ Pipeline.arrBufs spec0 c (fun b => V2 m c b) := by
  rw [arrBufs_eq, arrays_eq]
  rw [arrAt_in_eq m c 0 rfl, arrAt_in_eq m c 1 rfl, arrAt_in_eq m c 2 rfl, arrAt_in_eq m c 3 rfl, arrAt_in_eq m c 4 rfl, arrAt_in_eq m c 5 rfl]
  rw [V2_of m c main_arg0 (by decide), V2_of m c main_v2 (by decide), V2_of m c main_v3 (by decide), V2_of m c main_v4 (by decide), V2_of m c main_v5 (by decide)]
  rw [show V2 m c main_v6 = (dats m 0 c).arrAt 6 cfg0.N from by simp only [V2, Function.update_self]]
  iintro ⟨Hl, Hr, H2, H3, H4, H5, H6⟩
  isplitl [Hl Hr]
  · iapply (pointsTo_share (PosShare.mem_left_op_right fullShare)).2
    isplitl [Hl]; · iexact Hl
    iexact Hr
  isplitl [H2]; · iexact H2
  isplitl [H3]; · iexact H3
  isplitl [H4]; · iexact H4
  isplitl [H5]; · iexact H5
  iexact H6

/-- The buffers that bypass the region are not touched by it. -/
theorem rest_exit (c : Dev nD) :
    (Pipeline.unscopedRest spec0 c (V m c) : sProp 𝕄) = Pipeline.unscopedRest spec0 c (fun b => V2 m c b) := by
  rw [unscopedRest0_eq, unscopedRest0_eq]
  rw [V2_of m c main_arg1 (by decide), V2_of m c main_v0 (by decide), V2_of m c main_cst (by decide), V2_of m c main_v1 (by decide),
    V2_of m c main_cst_0 (by decide), V2_of m c main_v7 (by decide), V2_of m c main_cst_1 (by decide), V2_of m c main_v8 (by decide)]

/-! ## The segments -/

/-- What rides beside the buffers: the core owes nothing; the generator register at some state. -/
abbrev Rst (c : Dev nD) : sProp 𝕄 := iprop((∃ W, owes (c : Thread nD τ) (0 : CellTallies nD τ sig Unit) W) ∗ (∃ r, prngReg c r))

/-- The seven host operations before the region, over the unscoped buffers from the launch contents. -/
def seg0 : HostSeg (Ix := Unit) (Name := ℕ) (U := UR sig nD τ) (Lvl := ℕ) (pcfgs (F := F)) defs₀ Variants.none L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) Rst
/-- The four host operations after it, from the exit valuation. -/
def seg2 : HostSeg (Ix := Unit) (Name := ℕ) (U := UR sig nD τ) (Lvl := ℕ) (pcfgs (F := F)) defs₀ Variants.none L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (V2 m) Rst

set_option backward.isDefEq.respectTransparency.types false in
/-- The region. -/
def reg0 : RegionSeg (pcfgs (F := F)) adm (dats m) () defs₀ Variants.none L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (V1 m c) ∗ Rst c)
  post c := iprop(StableHlo.held (c : Thread nD τ) (Pipeline.ucRefs τ sig) (V2 m c) ∗ Rst c)
  X c := iprop(∃ r, prngReg c r)
  Y c := iprop(∃ r, prngReg c r)
  Z c := Pipeline.unscopedRest spec0 c (V m c)
  hentry c := by
    rw [show StableHlo.held (c : Thread nD τ) (Pipeline.ucRefs τ sig) (V1 m c) = unscopedBufs c (V m c) from (Pipeline.unscopedBufs_held c _).symm]
    rw [Pipeline.unscopedBufs_split₀ cfgs 0 winFacts₀0.arr_unscoped c (V m c)]
    iintro ⟨⟨⟨Ha, Hr⟩, HO, Hp⟩, -, -⟩
    ihave Ha' := (arrays_entry m c) $$ Ha
    imodintro
    isplitl [Ha']; · iexact Ha'
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hr
  hin c := (show _ ⊢ (Pipeline.ΦA spec0 c : sProp 𝕄) from by
    unfold Pipeline.ΦA
    iintro ⟨Hp, -, Hr⟩
    isplitl [Hr] <;> iassumption).trans (hin m c)
  hout c := by
    refine (hout m c).trans ?_
    rw [Pipeline.ownSems0_none]; unfold Pipeline.ΦA
    iintro ⟨Hr, Hp⟩
    isplitl [Hp]; · iexact Hp
    isplitr; · iempintro
    iexact Hr
  hexit c := by
    rw [show StableHlo.held (c : Thread nD τ) (Pipeline.ucRefs τ sig) (V2 m c) = unscopedBufs c (fun b => V2 m c b) from (Pipeline.unscopedBufs_held c _).symm]
    rw [Pipeline.unscopedBufs_split₀ cfgs 0 winFacts₀0.arr_unscoped c (fun b => V2 m c b), ← rest_exit m c]
    iintro ⟨Ha, HO, HY, HZ⟩
    ihave Ha' := (arrays_exit m c) $$ Ha
    imodintro
    isplitl [Ha' HZ]
    · isplitl [Ha']; · iexact Ha'
      iexact HZ
    isplitl [HO]
    · unfold Pipeline.Dat.owesAt Pipeline.owesWithin
      icases HO with ⟨%W, -, HO⟩; iexists W; iexact HO
    iexact HY

/-- @main as the list of the three. -/
abbrev segs : List (Seg (pcfgs (F := F)) adm (dats m) () defs₀ Variants.none L lv) := [.host (seg0 m), .region (reg0 m), .host (seg2 m)]

set_option backward.isDefEq.respectTransparency.types false in
/-- At the compiled mesh, for any float values, from any memory with zero counters: every weakly fair execution of
    @main on the TensorCores terminates, the result holding the host tail of the output array the pipeline leaves and
    both arguments their launch contents. -/
theorem run_main : θ_run defs (onTc (τ := τ) (main (F := F))) ⟨m, fun _ => 0, ρ⟩ (fun r => ∀ c : Dev nD,
      r.2.mem ((c.tc : Thread nD τ).loc main_v8) = tailVal ((dats m 0 c).arrAt 6 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (dats m) () cellOf_inj emb₁ defs₀ Variants.none L lv m ρ main (segs m)
    (fun c Q => by rw [main_segs adm (dats m) () Variants.none L lv (seg0 m) (seg2 m) (reg0 m) rfl rfl c])
    (by simp only [Seg.pipes_host, Seg.pipes_region, Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rst c))
    (Tₙ := fun c => iprop(StableHlo.held (c : Thread nD τ) (Pipeline.ucRefs τ sig) (V3 m c) ∗ (∃ r, prngReg c r)))
    (hch := ⟨fun _ => .rfl, fun _ => .rfl, fun _ => .rfl, fun c => by
      show iprop(StableHlo.held (c : Thread nD τ) (Pipeline.ucRefs τ sig) (V3 m c) ∗ Rst c) ⊢ _
      iintro ⟨Hh, HO, Hp⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (V0 m c) from Pipeline.unscopedBufs_held c (V0 m c)]
      iintro ⟨⟨Hh, -, HO, -, Hp, -⟩, -⟩
      imodintro
      isplitl [Hh]; · iexact Hh
      isplitl [HO]; · iexists ∅; iexact HO
      iexists _; iexact Hp)
    (QY := fun c s => s.mem ((c.tc : Thread nD τ).loc main_v8) = tailVal ((dats m 0 c).arrAt 6 cfg0.N)
      ∧ s.mem ((c.tc : Thread nD τ).loc main_arg0) = m ((c.tc : Thread nD τ).loc main_arg0)
      ∧ s.mem ((c.tc : Thread nD τ).loc main_arg1) = m ((c.tc : Thread nD τ).loc main_arg1))
    (hfin := fun c s' => by
      unfold StableHlo.held
      iintro ⟨⟨Hh, -⟩, HSI⟩
      ihave Hr := (pointsTo_read_all (Pipeline.ucRefs τ sig) (fun b => ((c : Thread nD τ).1, b)) (V3 m c) s') $$ [Hh HSI]
      · isplitl [Hh] <;> iassumption
      icases Hr with ⟨%h, HSI⟩
      imodintro
      isplitr
      · ipureintro
        exact ⟨(h (Proc.devRef .tc main_v8) (Finset.mem_filter.mpr ⟨StableHlo.devRef_mem_tcRefs main_v8, by decide⟩)).trans (V3_main_v8 m c),
          (h (Proc.devRef .tc main_arg0) (Finset.mem_filter.mpr ⟨StableHlo.devRef_mem_tcRefs main_arg0, by decide⟩)).trans (V3_main_arg0 m c),
          (h (Proc.devRef .tc main_arg1) (Finset.mem_filter.mpr ⟨StableHlo.devRef_mem_tcRefs main_arg1, by decide⟩)).trans (V3_main_arg1 m c)⟩
      · iexact HSI)
    (hQ := fun _ h => h)

/-- THE FRAME: both arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.Kernel.Hand

end
-- ==== Proof.KI.Data.lean ====
/-
  The proof data of the one pallas_call. The grid is 8 row tiles by 16 column tiles, walked row tile by row tile;
  point t is row tile t / 16, column tile t % 16. Two scratch columns carry, for the 1024 rows of the current row
  tile, the running maximum of the same-label distances and the running minimum of the other-label distances over the
  column tiles seen so far: reset at column tile 0, folded with the tile's row maximum / row minimum at every column
  tile, and turned into the row's hinge loss, written to the output block, at column tile 15.
  Windows 0 and 1 both stage blocks of the first argument (row-tile rows and column-tile rows of the same matrix), so
  the pipeline holds that array at two half shares, one per window.
-/
import proofs.«182006_j26680336843539_1_alg».proof.Proof.Gen.KernelIdeal.Launch
import proofs.«182006_j26680336843539_1_alg».proof.Proof.Gen.KernelIdeal.Skeleton
import proofs.«182006_j26680336843539_1_alg».proof.Proof.Gen.KernelIdeal.Points
import Idealize.ShloMosaic.Lib.Pipeline.FrameBody
import Idealize.ShloMosaic.Lib.Pipeline.Frame
import Idealize.ShloMosaic.Lib.Pipeline.Regions
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The buffers when the region is entered -/

/-- Core `c`'s unscoped buffers at launch, as a valuation; -/
abbrev V0 (c : Dev nD) : Valuation τ sig (Elt F) := fun b => m (c, b)
/-- after the seven host operations before the region (the squared row norms and the four reshapes); -/
abbrev V1 (c : Dev nD) : Valuation τ sig (Elt F) := StableHlo.after hostOps0 (V0 m c)
/-- and the latter read at a TensorCore reference. -/
abbrev V (c : Dev nD) (b : Ref sig .tc) : Buf (Elt F) ((c : Thread nD τ).loc b) := V1 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The six input blocks at a point, at their literal types: the row tile's 1024 rows of the matrix, the column
    tile's 512 rows of it, the row tile's labels (a column), the column tile's labels (a row), the row tile's squared
    norms (a column), the column tile's squared norms (a row). -/
abbrev bXi (c : Dev nD) (t : Fin cfg0.N) : Vec F S1024x128 .f32 := iblk m c 0 t
abbrev bXj (c : Dev nD) (t : Fin cfg0.N) : Vec F S512x128 .f32 := iblk m c 1 t
abbrev bTr (c : Dev nD) (t : Fin cfg0.N) : Vec F S1024x1 .i32 := iblk m c 2 t
abbrev bTc (c : Dev nD) (t : Fin cfg0.N) : Vec F S1x512 .i32 := iblk m c 3 t
abbrev bSr (c : Dev nD) (t : Fin cfg0.N) : Vec F S1024x1 .f32 := iblk m c 4 t
abbrev bSc (c : Dev nD) (t : Fin cfg0.N) : Vec F S1x512 .f32 := iblk m c 5 t

/-! ## The two accumulators, point by point -/

/-- One column tile folded into the pair (running maximum, running minimum): the tile's same-label distances' row
    maxima joined to the first, its other-label distances' row minima met with the second. -/
def accStep (c : Dev nD) (t : Fin cfg0.N) (p : Vec F S1024x1 .f32 × Vec F S1024x1 .f32) : Vec F S1024x1 .f32 × Vec F S1024x1 .f32 :=
  (k0_pay1 (k0_pay8 (bXi m c t) (bXj m c t) (bSr m c t) (bSc m c t) (bTr m c t) (bTc m c t)) p.1,
   k0_pay2 (k0_pay6 (bXi m c t) (bXj m c t) (bSr m c t) (bSc m c t)) (k0_pay7 (bTr m c t) (bTc m c t)) p.2)

/-- The accumulators' reset values: every row at minus infinity, every row at plus infinity. -/
abbrev accReset : Vec F S1024x1 .f32 × Vec F S1024x1 .f32 := (k0_pay4 (F := F), k0_pay5 (F := F))

/-- The pair after point `n`: at column tile 0 the tile folded into the reset pair, elsewhere into what the point
    before left. -/
def accAfter (c : Dev nD) : (n : ℕ) → n < cfg0.N → Vec F S1024x1 .f32 × Vec F S1024x1 .f32
  | 0, h => accStep m c ⟨0, h⟩ accReset
  | n + 1, h => accStep m c ⟨n + 1, h⟩ (if (n + 1) % 16 = 0 then accReset else accAfter c n (Nat.lt_of_succ_lt h))

theorem accAfter_first (c : Dev nD) (n : ℕ) (h : n < cfg0.N) (h0 : n % 16 = 0) :
    accAfter m c n h = accStep m c ⟨n, h⟩ accReset := by
  cases n with
  | zero => rfl
  | succ n =>
    show accStep m c ⟨n + 1, h⟩ (if (n + 1) % 16 = 0 then accReset else accAfter m c n (Nat.lt_of_succ_lt h)) = _
    rw [if_pos h0]

theorem accAfter_next (c : Dev nD) (n : ℕ) (h : n < cfg0.N) (h0 : n % 16 ≠ 0) :
    accAfter m c n h = accStep m c ⟨n, h⟩ (accAfter m c (n - 1) (by omega)) := by
  cases n with
  | zero => exact absurd rfl h0
  | succ n =>
    show accStep m c ⟨n + 1, h⟩ (if (n + 1) % 16 = 0 then accReset else accAfter m c n (Nat.lt_of_succ_lt h)) = _
    rw [if_neg h0]; rfl

/-- What the last column tile's point writes to the output block: per row, the hinge of (running maximum minus running
    minimum plus the margin). Stated at every point; only the points of column tile 15 store it. -/
def outAt (c : Dev nD) (t : Fin cfg0.N) : Vec F S1024x1 .f32 :=
  k0_pay3 (accAfter m c t.val t.isLt).1 (accAfter m c t.val t.isLt).2

/-- The host operations after the region, as one function of the output array: the sum of its 8192 losses from zero,
    divided by the count. -/
def tailVal (o : Vec F S8192x1 .f32) : FVec F S_ .f32 :=
  Host.divf (Host.reduceAdd o (constant S_ .f32 0x00000000#32) reducesTo_S8192x1_S_d0_1 h_S_) (constant S_ .f32 0x46000000#32)

/-! ## The invariant: the scratch columns at the accumulators -/

/-- The scratch operands, whole scoped buffers of the kernel's own. -/
abbrev scr0 : Memref sig .tc .vmem S1024x1 .f32 := Memref.whole cc0_scratch0
abbrev scr1 : Memref sig .tc .vmem S1024x1 .f32 := Memref.whole cc0_scratch1

/-- Before the first point the scratch columns hold anything; after point `n` they hold the pair `accAfter n`. The
    generator register rides along at some state. -/
def PhiS (c : Dev nD) : (n : ℕ) → n ≤ cfg0.N → sProp 𝕄
  | 0, _ => Pipeline.ΦA spec0 c
  | n + 1, h => iprop(owns (c : Thread nD τ) scr0 fullShare (accAfter m c n h).1 ∗ owns (c : Thread nD τ) scr1 fullShare (accAfter m c n h).2 ∗ (∃ r, prngReg c r))

theorem PhiS_zero (c : Dev nD) (h : 0 ≤ cfg0.N) : PhiS m c 0 h = Pipeline.ΦA spec0 c := rfl

theorem PhiS_succ (c : Dev nD) (n : ℕ) (hn : n < cfg0.N) :
    PhiS m c (n + 1) hn = iprop(owns (c : Thread nD τ) scr0 fullShare (accAfter m c n hn).1 ∗ owns (c : Thread nD τ) scr1 fullShare (accAfter m c n hn).2 ∗ (∃ r, prngReg c r)) := rfl

theorem PhiS_pos (c : Dev nD) (n : ℕ) (h : n ≤ cfg0.N) (hz : n ≠ 0) :
    PhiS m c n h = iprop(owns (c : Thread nD τ) scr0 fullShare (accAfter m c (n - 1) (by omega)).1 ∗ owns (c : Thread nD τ) scr1 fullShare (accAfter m c (n - 1) (by omega)).2 ∗ (∃ r, prngReg c r)) := by
  cases n with
  | zero => exact absurd rfl hz
  | succ n => rfl

/-- The class invariant with the two scratch columns listed. -/
theorem PhiA_eq (c : Dev nD) :
    (Pipeline.ΦA spec0 c : sProp 𝕄)
      = iprop(((∃ d, owns (c : Thread nD τ) scr0 fullShare d) ∗ (∃ d, owns (c : Thread nD τ) scr1 fullShare d)) ∗ (∃ r, prngReg c r)) := by
  unfold Pipeline.ΦA; rw [scopedRest0_eq]; simp only [scr0, scr1, owns_whole]; try rfl

/-! ## The proof data -/

/-- On core `c`: the arrays as the region finds them; after the body each input's buffer at its block and the output's
    at `outAt`; the scratch invariant; nothing owed; the first argument's array at a half share for each of the two
    windows that stage it, every other input array outright. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = outAt m c t := by dsimp only [dats]

/-- Each input's current staging buffer holds its block at every point, fetched there or not: an input the body only
    reads keeps its block, and where it is not refetched its block index has not moved. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)

/-! ## The body's two branches over the grid, and where the output window is idle -/

/-- The first branch (reset the accumulators) is taken at column tile 0; -/
abbrev condFirst (i : grid0.Coords) : Prop := (Scalar.cmpi .ne (Scalar.extui (Scalar.cmpi .eq (BitVec.ofNat 32 (i 1).val) 0#32)) 0#32) = 1#1
theorem hcondFirst : ∀ t : Fin cfg0.N, condFirst (grid0.coords t) ↔ t.val % 16 = 0 :=
  (by decide +kernel : ∀ t : Fin grid0.N, condFirst (grid0.coords t) ↔ t.val % 16 = 0)
/-- the second (write the losses out) at column tile 15. -/
abbrev condLast (i : grid0.Coords) : Prop := k0_cond2 i = 1#1
theorem hcondLast : ∀ t : Fin cfg0.N, condLast (grid0.coords t) ↔ t.val % 16 = 15 :=
  (by decide +kernel : ∀ t : Fin grid0.N, condLast (grid0.coords t) ↔ t.val % 16 = 15)

/-- The output window is idle, and not written back, wherever the second branch is not taken; live where it is. -/
theorem idle_6 : ∀ t : Fin cfg0.N, ¬ condLast (grid0.coords t) → cfg0.idle 6 (grid0.coords t) = true := by decide +kernel
theorem noFlush_6 : ∀ t : Fin cfg0.N, ¬ condLast (grid0.coords t) → (cfg0.win 6).flush t = false := by decide +kernel
theorem live_6 : ∀ t : Fin cfg0.N, condLast (grid0.coords t) → cfg0.idle 6 (grid0.coords t) = false := by decide +kernel

end Cert.KernelIdeal.Hand

end
-- ==== Proof.KI.Run.lean ====
/-
  The kernel body on any whole staging and scratch memrefs, in its three control cases. With the six input blocks
  x0 (row tile's rows), x1 (column tile's rows), tr / tc (labels), sr / sc (squared norms) in their buffers:
  * at column tile 0 the two scratch columns, whatever they held, end at the tile folded into the reset pair;
  * at a middle column tile they end at the tile folded into what they held;
  * at column tile 15 likewise, and the output buffer, whatever it held, ends at the rows' hinge losses of the two
    scratch columns just stored.
  The input buffers are handed back as found. Each case is the symbolic run of the body's loads and stores; a stored
  column is read back through its one whole-buffer store.
-/
import proofs.«182006_j26680336843539_1_alg».proof.Proof.Gen.KernelIdeal.Launch
import proofs.«182006_j26680336843539_1_alg».proof.Proof.Gen.KernelIdeal.Skeleton
import proofs.«182006_j26680336843539_1_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

/-- The offsets of every load and store of the body: the buffer's origin. -/
theorem zeroOff : (![0, 0] : Fin 2 → ℕ) = fun _ => 0 := by funext a; fin_cases a <;> rfl

/-- The first branch's condition (column tile 0) and the second's (column tile 15), over the grid coordinates. -/
abbrev runFirst (i : grid0.Coords) : Prop := (Scalar.cmpi .ne (Scalar.extui (Scalar.cmpi .eq (BitVec.ofNat 32 (i 1).val) 0#32)) 0#32) = 1#1
abbrev runLast (i : grid0.Coords) : Prop := k0_cond2 i = 1#1

set_option maxHeartbeats 1000000 in
/-- Column tile 0: reset, then fold the tile in. -/
theorem run_first (c : Dev nD) (i : grid0.Coords)
    (arg2 : Memref sig .tc .vmem S1024x128 .f32) (harg2 : arg2.IsWhole) (arg3 : Memref sig .tc .vmem S512x128 .f32) (harg3 : arg3.IsWhole)
    (arg4 : Memref sig .tc .vmem S1024x1 .i32) (harg4 : arg4.IsWhole) (arg5 : Memref sig .tc .vmem S1x512 .i32) (harg5 : arg5.IsWhole)
    (arg6 : Memref sig .tc .vmem S1024x1 .f32) (harg6 : arg6.IsWhole) (arg7 : Memref sig .tc .vmem S1x512 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : runFirst i) (hc1 : ¬ runLast i)
    (x0 : Vec F S1024x128 .f32) (x1 : Vec F S512x128 .f32) (tr : Vec F S1024x1 .i32) (tc : Vec F S1x512 .i32)
    (sr : Vec F S1024x1 .f32) (sc : Vec F S1x512 .f32) (E : Set ℕ) (K : PUnit → sProp 𝕄) :
    iprop(owns (c : Thread nD τ) arg2 fullShare x0 ∗ owns (c : Thread nD τ) arg3 fullShare x1
        ∗ owns (c : Thread nD τ) arg4 fullShare tr ∗ owns (c : Thread nD τ) arg5 fullShare tc
        ∗ owns (c : Thread nD τ) arg6 fullShare sr ∗ owns (c : Thread nD τ) arg7 fullShare sc
        ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1
        ∗ owns (c : Thread nD τ) arg4 fullShare tr ∗ owns (c : Thread nD τ) arg5 fullShare tc
        ∗ owns (c : Thread nD τ) arg6 fullShare sr ∗ owns (c : Thread nD τ) arg7 fullShare sc
            ∗ owns (c : Thread nD τ) arg9 fullShare (k0_pay1 (k0_pay8 x0 x1 sr sc tr tc) (k0_pay4 (F := F)))
            ∗ owns (c : Thread nD τ) arg10 fullShare (k0_pay2 (k0_pay6 x0 x1 sr sc) (k0_pay7 tr tc) (k0_pay5 (F := F)))) -∗ K ⟨⟩))
      ⊢ wp frame (wpE (defs₀ (F := F)) Variants.none c none) E
          (cc0__triplet_kernel i arg2 harg2 arg3 harg3 arg4 harg4 arg5 harg5 arg6 harg6 arg7 harg7 arg8 harg8 arg9 harg9 arg10 harg10) K := by
  simp only [cc0__triplet_kernel_eq_skeleton]; unfold cc0__triplet_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d9, %f9, -, H9⟩, ⟨%d10, %f10, -, H10⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H9]
  · iexists _; isplitr; swap; · iexact H9
    ipureintro
    try sl_unfold_words
    rw [View.read_writes_eq_canon _ _ _ (fun y => ⟨_, List.mem_cons_self .., View.mem_set_unit_zero zeroOff Gen.inb_S1024x1_S1024x1_0_0 y⟩)]
    rw [View.canon_cons_unit_zero (S := S1024x1) zeroOff]
    simp only [View.readAt_eq_ld, Memref.IsWhole.read_unread, View.ld_unit_zero (S := S1024x128) zeroOff, View.ld_unit_zero (S := S512x128) zeroOff,
      View.ld_unit_zero (S := S1024x1) zeroOff, View.ld_unit_zero (S := S1x512) zeroOff, View.readCov_unit_zero (S := S1024x1) _ zeroOff]
  · iexists _; isplitr; swap; · iexact H10
    ipureintro
    try sl_unfold_words
    rw [View.read_writes_eq_canon _ _ _ (fun y => ⟨_, List.mem_cons_self .., View.mem_set_unit_zero zeroOff Gen.inb_S1024x1_S1024x1_0_0 y⟩)]
    rw [View.canon_cons_unit_zero (S := S1024x1) zeroOff]
    simp only [View.readAt_eq_ld, Memref.IsWhole.read_unread, View.ld_unit_zero (S := S1024x128) zeroOff, View.ld_unit_zero (S := S512x128) zeroOff,
      View.ld_unit_zero (S := S1024x1) zeroOff, View.ld_unit_zero (S := S1x512) zeroOff, View.readCov_unit_zero (S := S1024x1) _ zeroOff]

set_option maxHeartbeats 1000000 in
/-- A middle column tile: fold the tile into what the scratch columns hold. -/
theorem run_mid (c : Dev nD) (i : grid0.Coords)
    (arg2 : Memref sig .tc .vmem S1024x128 .f32) (harg2 : arg2.IsWhole) (arg3 : Memref sig .tc .vmem S512x128 .f32) (harg3 : arg3.IsWhole)
    (arg4 : Memref sig .tc .vmem S1024x1 .i32) (harg4 : arg4.IsWhole) (arg5 : Memref sig .tc .vmem S1x512 .i32) (harg5 : arg5.IsWhole)
    (arg6 : Memref sig .tc .vmem S1024x1 .f32) (harg6 : arg6.IsWhole) (arg7 : Memref sig .tc .vmem S1x512 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : ¬ runFirst i) (hc1 : ¬ runLast i)
    (x0 : Vec F S1024x128 .f32) (x1 : Vec F S512x128 .f32) (tr : Vec F S1024x1 .i32) (tc : Vec F S1x512 .i32)
    (sr : Vec F S1024x1 .f32) (sc : Vec F S1x512 .f32) (s0 s1 : Vec F S1024x1 .f32) (E : Set ℕ) (K : PUnit → sProp 𝕄) :
    iprop(owns (c : Thread nD τ) arg2 fullShare x0 ∗ owns (c : Thread nD τ) arg3 fullShare x1
        ∗ owns (c : Thread nD τ) arg4 fullShare tr ∗ owns (c : Thread nD τ) arg5 fullShare tc
        ∗ owns (c : Thread nD τ) arg6 fullShare sr ∗ owns (c : Thread nD τ) arg7 fullShare sc
        ∗ owns (c : Thread nD τ) arg9 fullShare s0 ∗ owns (c : Thread nD τ) arg10 fullShare s1
        ∗ (iprop(owns (c : Thread nD τ) arg2 fullShare x0 ∗ owns (c : Thread nD τ) arg3 fullShare x1
        ∗ owns (c : Thread nD τ) arg4 fullShare tr ∗ owns (c : Thread nD τ) arg5 fullShare tc
        ∗ owns (c : Thread nD τ) arg6 fullShare sr ∗ owns (c : Thread nD τ) arg7 fullShare sc
            ∗ owns (c : Thread nD τ) arg9 fullShare (k0_pay1 (k0_pay8 x0 x1 sr sc tr tc) s0)
            ∗ owns (c : Thread nD τ) arg10 fullShare (k0_pay2 (k0_pay6 x0 x1 sr sc) (k0_pay7 tr tc) s1)) -∗ K ⟨⟩))
      ⊢ wp frame (wpE (defs₀ (F := F)) Variants.none c none) E
          (cc0__triplet_kernel i arg2 harg2 arg3 harg3 arg4 harg4 arg5 harg5 arg6 harg6 arg7 harg7 arg8 harg8 arg9 harg9 arg10 harg10) K := by
  simp only [cc0__triplet_kernel_eq_skeleton]; unfold cc0__triplet_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f9, %hf9, H9⟩, ⟨%f10, %hf10, H10⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg9.eq_unread hf9; obtain rfl := harg10.eq_unread hf10
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H9]
  · iexists _; isplitr; swap; · iexact H9
    ipureintro
    try sl_unfold_words
    rw [View.read_writes_eq_canon _ _ _ (fun y => ⟨_, List.mem_cons_self .., View.mem_set_unit_zero zeroOff Gen.inb_S1024x1_S1024x1_0_0 y⟩)]
    rw [View.canon_cons_unit_zero (S := S1024x1) zeroOff]
    simp only [View.readAt_eq_ld, Memref.IsWhole.read_unread, View.ld_unit_zero (S := S1024x128) zeroOff, View.ld_unit_zero (S := S512x128) zeroOff,
      View.ld_unit_zero (S := S1024x1) zeroOff, View.ld_unit_zero (S := S1x512) zeroOff, View.readCov_unit_zero (S := S1024x1) _ zeroOff]
  · iexists _; isplitr; swap; · iexact H10
    ipureintro
    try sl_unfold_words
    rw [View.read_writes_eq_canon _ _ _ (fun y => ⟨_, List.mem_cons_self .., View.mem_set_unit_zero zeroOff Gen.inb_S1024x1_S1024x1_0_0 y⟩)]
    rw [View.canon_cons_unit_zero (S := S1024x1) zeroOff]
    simp only [View.readAt_eq_ld, Memref.IsWhole.read_unread, View.ld_unit_zero (S := S1024x128) zeroOff, View.ld_unit_zero (S := S512x128) zeroOff,
      View.ld_unit_zero (S := S1024x1) zeroOff, View.ld_unit_zero (S := S1x512) zeroOff, View.readCov_unit_zero (S := S1024x1) _ zeroOff]

set_option maxHeartbeats 1000000 in
/-- Column tile 15: fold the tile in, then write the rows' hinge losses to the output buffer. -/
theorem run_last (c : Dev nD) (i : grid0.Coords)
    (arg2 : Memref sig .tc .vmem S1024x128 .f32) (harg2 : arg2.IsWhole) (arg3 : Memref sig .tc .vmem S512x128 .f32) (harg3 : arg3.IsWhole)
    (arg4 : Memref sig .tc .vmem S1024x1 .i32) (harg4 : arg4.IsWhole) (arg5 : Memref sig .tc .vmem S1x512 .i32) (harg5 : arg5.IsWhole)
    (arg6 : Memref sig .tc .vmem S1024x1 .f32) (harg6 : arg6.IsWhole) (arg7 : Memref sig .tc .vmem S1x512 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : ¬ runFirst i) (hc1 : runLast i)
    (x0 : Vec F S1024x128 .f32) (x1 : Vec F S512x128 .f32) (tr : Vec F S1024x1 .i32) (tc : Vec F S1x512 .i32)
    (sr : Vec F S1024x1 .f32) (sc : Vec F S1x512 .f32) (s0 s1 : Vec F S1024x1 .f32) (E : Set ℕ) (K : PUnit → sProp 𝕄) :
    iprop(owns (c : Thread nD τ) arg2 fullShare x0 ∗ owns (c : Thread nD τ) arg3 fullShare x1
        ∗ owns (c : Thread nD τ) arg4 fullShare tr ∗ owns (c : Thread nD τ) arg5 fullShare tc
        ∗ owns (c : Thread nD τ) arg6 fullShare sr ∗ owns (c : Thread nD τ) arg7 fullShare sc
        ∗ (∃ d, owns (c : Thread nD τ) arg8 fullShare d)
        ∗ owns (c : Thread nD τ) arg9 fullShare s0 ∗ owns (c : Thread nD τ) arg10 fullShare s1
        ∗ (iprop(owns (c : Thread nD τ) arg2 fullShare x0 ∗ owns (c : Thread nD τ) arg3 fullShare x1
        ∗ owns (c : Thread nD τ) arg4 fullShare tr ∗ owns (c : Thread nD τ) arg5 fullShare tc
        ∗ owns (c : Thread nD τ) arg6 fullShare sr ∗ owns (c : Thread nD τ) arg7 fullShare sc
            ∗ owns (c : Thread nD τ) arg8 fullShare (k0_pay3 (k0_pay1 (k0_pay8 x0 x1 sr sc tr tc) s0) (k0_pay2 (k0_pay6 x0 x1 sr sc) (k0_pay7 tr tc) s1))
            ∗ owns (c : Thread nD τ) arg9 fullShare (k0_pay1 (k0_pay8 x0 x1 sr sc tr tc) s0)
            ∗ owns (c : Thread nD τ) arg10 fullShare (k0_pay2 (k0_pay6 x0 x1 sr sc) (k0_pay7 tr tc) s1)) -∗ K ⟨⟩))
      ⊢ wp frame (wpE (defs₀ (F := F)) Variants.none c none) E
          (cc0__triplet_kernel i arg2 harg2 arg3 harg3 arg4 harg4 arg5 harg5 arg6 harg6 arg7 harg7 arg8 harg8 arg9 harg9 arg10 harg10) K := by
  simp only [cc0__triplet_kernel_eq_skeleton]; unfold cc0__triplet_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg9.eq_unread hf9; obtain rfl := harg10.eq_unread hf10
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; swap; · iexact H8
    ipureintro
    try sl_unfold_words
    rw [View.read_writes_eq_canon _ _ _ (fun y => ⟨_, List.mem_cons_self .., View.mem_set_unit_zero zeroOff Gen.inb_S1024x1_S1024x1_0_0 y⟩)]
    rw [View.canon_cons_unit_zero (S := S1024x1) zeroOff]
    simp only [View.readAt_eq_ld, Memref.IsWhole.read_unread, View.ld_unit_zero (S := S1024x128) zeroOff, View.ld_unit_zero (S := S512x128) zeroOff,
      View.ld_unit_zero (S := S1024x1) zeroOff, View.ld_unit_zero (S := S1x512) zeroOff, View.readCov_unit_zero (S := S1024x1) _ zeroOff]
  isplitl [H9]
  · iexists _; isplitr; swap; · iexact H9
    ipureintro
    try sl_unfold_words
    rw [View.read_writes_eq_canon _ _ _ (fun y => ⟨_, List.mem_cons_self .., View.mem_set_unit_zero zeroOff Gen.inb_S1024x1_S1024x1_0_0 y⟩)]
    rw [View.canon_cons_unit_zero (S := S1024x1) zeroOff]
    simp only [View.readAt_eq_ld, Memref.IsWhole.read_unread, View.ld_unit_zero (S := S1024x128) zeroOff, View.ld_unit_zero (S := S512x128) zeroOff,
      View.ld_unit_zero (S := S1024x1) zeroOff, View.ld_unit_zero (S := S1x512) zeroOff, View.readCov_unit_zero (S := S1024x1) _ zeroOff]
  · iexists _; isplitr; swap; · iexact H10
    ipureintro
    try sl_unfold_words
    rw [View.read_writes_eq_canon _ _ _ (fun y => ⟨_, List.mem_cons_self .., View.mem_set_unit_zero zeroOff Gen.inb_S1024x1_S1024x1_0_0 y⟩)]
    rw [View.canon_cons_unit_zero (S := S1024x1) zeroOff]
    simp only [View.readAt_eq_ld, Memref.IsWhole.read_unread, View.ld_unit_zero (S := S1024x128) zeroOff, View.ld_unit_zero (S := S512x128) zeroOff,
      View.ld_unit_zero (S := S1024x1) zeroOff, View.ld_unit_zero (S := S1x512) zeroOff, View.readCov_unit_zero (S := S1024x1) _ zeroOff]

end Cert.KernelIdeal.Hand

end
-- ==== Proof.KI.Oblig.lean ====
/-
  The body obligation of the pallas_call at a generic grid point. The six input windows' current buffers hold their
  blocks; the point is in one of three cases by its column tile (0, 1..14, 15), decided over the grid in closed form;
  the case's run of the body applies. The invariant hands the run the two scratch columns at what the point before
  left (at anything before the first point, where the body resets them) and takes them back at this point's pair; the
  output window's buffer is handed back untouched except at column tile 15, where it receives the row tile's losses.
-/
import proofs.«182006_j26680336843539_1_alg».proof.Proof.KI.Data
import proofs.«182006_j26680336843539_1_alg».proof.Proof.KI.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- Each window's current staging memref at point `t`, spelled as the pipeline passes it to the body. -/
abbrev ms0 (t : Fin cfg0.N) : Memref sig .tc .vmem S1024x128 .f32 := win0_0.stage (cfg0.slots t 0)
abbrev ms1 (t : Fin cfg0.N) : Memref sig .tc .vmem S512x128 .f32 := win0_1.stage (cfg0.slots t 1)
abbrev ms2 (t : Fin cfg0.N) : Memref sig .tc .vmem S1024x1 .i32 := win0_2.stage (cfg0.slots t 2)
abbrev ms3 (t : Fin cfg0.N) : Memref sig .tc .vmem S1x512 .i32 := win0_3.stage (cfg0.slots t 3)
abbrev ms4 (t : Fin cfg0.N) : Memref sig .tc .vmem S1024x1 .f32 := win0_4.stage (cfg0.slots t 4)
abbrev ms5 (t : Fin cfg0.N) : Memref sig .tc .vmem S1x512 .f32 := win0_5.stage (cfg0.slots t 5)
abbrev ms6 (t : Fin cfg0.N) : Memref sig .tc .vmem S1024x1 .f32 := win0_6.stage (cfg0.slots t 6)

/-- What the body is called with at point `t` (the obligation's precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t
    ∗ (dats m 0 c).leavesExact 6 t)

/-- The input windows are never idle: the body leaves each at its block. -/
theorem leaves_0 (c : Dev nD) (t : Fin cfg0.N) : (dats m 0 c).leavesExact 0 t = owns (c : Thread nD τ) (ms0 t) fullShare (iblk m c 0 t) := by
  unfold Dat.leavesExact; rw [show cfg0.idle 0 (cfg0.grid.coords t) = false from rfl, after_0]
theorem leaves_1 (c : Dev nD) (t : Fin cfg0.N) : (dats m 0 c).leavesExact 1 t = owns (c : Thread nD τ) (ms1 t) fullShare (iblk m c 1 t) := by
  unfold Dat.leavesExact; rw [show cfg0.idle 1 (cfg0.grid.coords t) = false from rfl, after_1]
theorem leaves_2 (c : Dev nD) (t : Fin cfg0.N) : (dats m 0 c).leavesExact 2 t = owns (c : Thread nD τ) (ms2 t) fullShare (iblk m c 2 t) := by
  unfold Dat.leavesExact; rw [show cfg0.idle 2 (cfg0.grid.coords t) = false from rfl, after_2]
theorem leaves_3 (c : Dev nD) (t : Fin cfg0.N) : (dats m 0 c).leavesExact 3 t = owns (c : Thread nD τ) (ms3 t) fullShare (iblk m c 3 t) := by
  unfold Dat.leavesExact; rw [show cfg0.idle 3 (cfg0.grid.coords t) = false from rfl, after_3]
theorem leaves_4 (c : Dev nD) (t : Fin cfg0.N) : (dats m 0 c).leavesExact 4 t = owns (c : Thread nD τ) (ms4 t) fullShare (iblk m c 4 t) := by
  unfold Dat.leavesExact; rw [show cfg0.idle 4 (cfg0.grid.coords t) = false from rfl, after_4]
theorem leaves_5 (c : Dev nD) (t : Fin cfg0.N) : (dats m 0 c).leavesExact 5 t = owns (c : Thread nD τ) (ms5 t) fullShare (iblk m c 5 t) := by
  unfold Dat.leavesExact; rw [show cfg0.idle 5 (cfg0.grid.coords t) = false from rfl, after_5]

/-- Before the first point the invariant is the class's (the scratch columns at anything). -/
theorem PhiS_at_zero (c : Dev nD) (n : ℕ) (h : n ≤ cfg0.N) (hz : n = 0) : PhiS m c n h = Pipeline.ΦA spec0 c := by
  subst hz; rfl

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [show (dats m 0 c).Φ t.succ = PhiS m c (t.val + 1) t.isLt from rfl, PhiS_succ]
  rw [leaves_0, leaves_1, leaves_2, leaves_3, leaves_4, leaves_5]
  have hN : t.val < 128 := lt_of_lt_of_eq t.isLt (show cfg0.N = 128 from N_0)
  by_cases h0 : t.val % 16 = 0
  · -- column tile 0
    have hl : ¬ t.val % 16 = 15 := by omega
    have hc0 : condFirst (grid0.coords t) := (hcondFirst t).mpr h0
    have hc1 : ¬ condLast (grid0.coords t) := fun h => hl ((hcondLast t).mp h)
    rw [Dat.leavesExact_idle (dats m 0 c) 6 t (idle_6 t hc1) (noFlush_6 t hc1)]
    rw [accAfter_first m c t.val t.isLt h0]
    unfold accStep accReset; dsimp only
    by_cases hz : t.val = 0
    · rw [PhiS_castSucc m c t, PhiS_at_zero m c _ _ hz, PhiA_eq]
      iintro ⟨⟨⟨HS0, HS1⟩, Hg⟩, Ho, ⟨%d0, H0⟩, ⟨%d1, H1⟩, ⟨%d2, H2⟩, ⟨%d3, H3⟩, ⟨%d4, H4⟩, ⟨%d5, H5⟩, H6⟩
      iapply (run_first c (grid0.coords t) _ _ _ _ _ _ _ _ _ _ _ _ _ _ _ _ _ _ hc0 hc1 (bXi m c t) (bXj m c t) (bTr m c t) (bTc m c t) (bSr m c t) (bSc m c t) Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1 Hg]
      · isplitl [HS0]; · iexact HS0
        isplitl [HS1]; · iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [PhiS_castSucc m c t, PhiS_pos m c _ _ hz]
      iintro ⟨⟨HS0, HS1, Hg⟩, Ho, ⟨%d0, H0⟩, ⟨%d1, H1⟩, ⟨%d2, H2⟩, ⟨%d3, H3⟩, ⟨%d4, H4⟩, ⟨%d5, H5⟩, H6⟩
      iapply (run_first c (grid0.coords t) _ _ _ _ _ _ _ _ _ _ _ _ _ _ _ _ _ _ hc0 hc1 (bXi m c t) (bXj m c t) (bTr m c t) (bTc m c t) (bSr m c t) (bSc m c t) Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      iintro ⟨H0, H1, H2, H3, H4, H5, HS0, HS1⟩
      isplitl [HS0 HS1 Hg]
      · isplitl [HS0]; · iexact HS0
        isplitl [HS1]; · iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
  · have hz : t.val ≠ 0 := fun e => h0 (by rw [e])
    have hc0 : ¬ condFirst (grid0.coords t) := fun h => h0 ((hcondFirst t).mp h)
    rw [accAfter_next m c t.val t.isLt h0]
    unfold accStep; dsimp only
    rw [PhiS_castSucc m c t, PhiS_pos m c _ _ hz]
    by_cases h1 : t.val % 16 = 15
    · -- column tile 15
      have hc1 : condLast (grid0.coords t) := (hcondLast t).mpr h1
      rw [show (dats m 0 c).leavesExact 6 t = owns (c : Thread nD τ) (ms6 t) fullShare ((dats m 0 c).after 6 t) from by
        unfold Dat.leavesExact; rw [live_6 t hc1], after_6]
      unfold outAt
      rw [accAfter_next m c t.val t.isLt h0]
      unfold accStep; dsimp only
      iintro ⟨⟨HS0, HS1, Hg⟩, Ho, ⟨%d0, H0⟩, ⟨%d1, H1⟩, ⟨%d2, H2⟩, ⟨%d3, H3⟩, ⟨%d4, H4⟩, ⟨%d5, H5⟩, ⟨%d6, H6⟩⟩
      iapply (run_last c (grid0.coords t) _ _ _ _ _ _ _ _ _ _ _ _ _ _ _ _ _ _ hc0 hc1 (bXi m c t) (bXj m c t) (bTr m c t) (bTc m c t) (bSr m c t) (bSc m c t)
        (accAfter m c (t.val - 1) (by omega)).1 (accAfter m c (t.val - 1) (by omega)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      iintro ⟨H0, H1, H2, H3, H4, H5, H6, HS0, HS1⟩
      isplitl [HS0 HS1 Hg]
      · isplitl [HS0]; · iexact HS0
        isplitl [HS1]; · iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · -- a middle column tile
      have hc1 : ¬ condLast (grid0.coords t) := fun h => h1 ((hcondLast t).mp h)
      rw [Dat.leavesExact_idle (dats m 0 c) 6 t (idle_6 t hc1) (noFlush_6 t hc1)]
      iintro ⟨⟨HS0, HS1, Hg⟩, Ho, ⟨%d0, H0⟩, ⟨%d1, H1⟩, ⟨%d2, H2⟩, ⟨%d3, H3⟩, ⟨%d4, H4⟩, ⟨%d5, H5⟩, H6⟩
      iapply (run_mid c (grid0.coords t) _ _ _ _ _ _ _ _ _ _ _ _ _ _ _ _ _ _ hc0 hc1 (bXi m c t) (bXj m c t) (bTr m c t) (bTc m c t) (bSr m c t) (bSc m c t)
        (accAfter m c (t.val - 1) (by omega)).1 (accAfter m c (t.val - 1) (by omega)).2 Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1 Hg]
      · isplitl [HS0]; · iexact HS0
        isplitl [HS1]; · iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point; -/
theorem hin (c : Dev nD) : Pipeline.ΦA spec0 c ⊢ (dats m 0 c).Φ 0 := by
  rw [show (dats m 0 c).Φ 0 = PhiS m c 0 (Nat.zero_le _) from rfl, PhiS_zero]

/-- and after the last point the invariant gives it back: the scratch columns' contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 128 := N_0; omega), PhiA_eq]
  iintro ⟨HS0, HS1, Hg⟩
  isplitl [HS0 HS1]
  · isplitl [HS0]
    · iexists _; iexact HS0
    · iexists _; iexact HS1
  iexact Hg

end Cert.KernelIdeal.Hand

end
-- ==== Proof.KI.Launch.lean ====
/-
  The launch. @main is seven host operations, the pallas_call, four host operations; it runs as three segments over
  thread states "every unscoped buffer whole at a valuation, the core owing nothing, the generator register at some
  state". The region takes the arrays of its seven windows out of the unscoped buffers — the first argument's buffer,
  which two windows stage, split into two half shares, one per window — and puts them back at exit, the two halves
  rejoined (both windows only read it, so both end at the entry contents) and the output array at what the pipeline
  wrote back. Read at the end: the result is the host tail of the output array, and both arguments are as launched.
-/
import proofs.«182006_j26680336843539_1_alg».proof.Proof.KI.Oblig
import Idealize.ShloMosaic.Lib.Pipeline.Regions
import Idealize.ShloMosaic.Lib.Pipeline.Frame
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm

/-! ## What the host stretches write -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

abbrev hostOps0_W : List (Ref sig .tc) := [main_v0, main_cst, main_v1, main_v2, main_v3, main_v4, main_v5]
theorem hostOps0_writes : (hostOps0 : List (HloOp τ sig (Elt F))).Forall fun op => op.writes ⊆ (hostOps0_W.map (Proc.devRef (τ := τ) .tc)).toFinset := by
  simp only [List.Forall]
  refine ⟨?_, ?_, ?_, ?_, ?_, ?_, ?_⟩ <;>
    (simp only [StableHlo.nullary_writes, StableHlo.unary_writes, StableHlo.binary_writes, StableHlo.reshape_writes, Finset.singleton_subset_iff, List.mem_toFinset]; exact List.mem_map_of_mem (by decide))
abbrev hostOps1_W : List (Ref sig .tc) := [main_cst_0, main_v7, main_cst_1, main_v8]
theorem hostOps1_writes : (hostOps1 : List (HloOp τ sig (Elt F))).Forall fun op => op.writes ⊆ (hostOps1_W.map (Proc.devRef (τ := τ) .tc)).toFinset := by
  simp only [List.Forall]
  refine ⟨?_, ?_, ?_, ?_⟩ <;>
    (simp only [StableHlo.nullary_writes, StableHlo.unary_writes, StableHlo.binary_writes, StableHlo.reshape_writes, Finset.singleton_subset_iff, List.mem_toFinset]; exact List.mem_map_of_mem (by decide))

/-! ## The valuations between the segments -/

/-- After the region: the output array at what the pipeline wrote back, everything else as the region found it. -/
abbrev V2 (c : Dev nD) : Valuation τ sig (Elt F) := Function.update (V1 m c) main_v6 ((dats m 0 c).arrAt 6 cfg0.N)
/-- After the four host operations behind the region. -/
abbrev V3 (c : Dev nD) : Valuation τ sig (Elt F) := StableHlo.after hostOps1 (V2 m c)

theorem V1_of (c : Dev nD) (r : Ref sig .tc) (h : r ∉ hostOps0_W) : V1 m c r = V0 m c r :=
  StableHlo.after_of_writes_sub hostOps0 _ hostOps0_writes h
theorem V2_of (c : Dev nD) (r : Ref sig .tc) (h : r ∉ ([main_v6] : List (Ref sig .tc))) : V2 m c r = V1 m c r := by
  simp only [V2, Function.update_of_ne (StableHlo.devRef_ne_of_ne (List.ne_of_not_mem_cons h) : (Proc.devRef .tc r : DevRef τ sig) ≠ Proc.devRef .tc main_v6)]
theorem V3_of (c : Dev nD) (r : Ref sig .tc) (h : r ∉ hostOps1_W) : V3 m c r = V2 m c r :=
  StableHlo.after_of_writes_sub hostOps1 _ hostOps1_writes h

/-- The arguments reach the end as launched. -/
theorem V3_main_arg0 (c : Dev nD) : V3 m c main_arg0 = m ((c : Thread nD τ).loc main_arg0) :=
  (V3_of m c main_arg0 (by decide)).trans <| (V2_of m c main_arg0 (by decide)).trans <| (V1_of m c main_arg0 (by decide)).trans rfl
theorem V3_main_arg1 (c : Dev nD) : V3 m c main_arg1 = m ((c : Thread nD τ).loc main_arg1) :=
  (V3_of m c main_arg1 (by decide)).trans <| (V2_of m c main_arg1 (by decide)).trans <| (V1_of m c main_arg1 (by decide)).trans rfl

/-- The result is the host tail of the output array. -/
theorem V3_main_v8 (c : Dev nD) : V3 m c main_v8 = tailVal ((dats m 0 c).arrAt 6 cfg0.N) := by
  show StableHlo.after hostOps1 (V2 m c) (Proc.devRef .tc main_v8) = _
  after_results
  simp only [V2, Function.update_self]
  rfl

/-! ## The arrays at the region's two ends -/

/-- The buffers behind the windows' arrays, listed: six buffers for seven windows. -/
theorem arrBufs_eq (c : Dev nD) (W : (b : Ref sig .tc) → Buf (Elt F) ((c : Thread nD τ).loc b)) :
    (Pipeline.arrBufs spec0 c W : sProp 𝕄)
      = iprop((((c : Thread nD τ).loc main_arg0) ↦{fullShare} W main_arg0) ∗ (((c : Thread nD τ).loc main_v2) ↦{fullShare} W main_v2)
          ∗ (((c : Thread nD τ).loc main_v3) ↦{fullShare} W main_v3) ∗ (((c : Thread nD τ).loc main_v4) ↦{fullShare} W main_v4)
          ∗ (((c : Thread nD τ).loc main_v5) ↦{fullShare} W main_v5) ∗ (((c : Thread nD τ).loc main_v6) ↦{fullShare} W main_v6)) := by
  unfold Pipeline.arrBufs
  exact bigSep_eq_bigSepL_of_eq [main_arg0, main_v2, main_v3, main_v4, main_v5, main_v6] (by decide) (by decide) _

/-- The share each window's array is held at: a half of the first argument's buffer for each of windows 0 and 1. -/
theorem share_0 (c : Dev nD) : (dats m 0 c).share 0 = fullShare.left := by
  unfold Dat.share; rw [if_neg (by decide)]; dsimp only [dats]
theorem share_1 (c : Dev nD) : (dats m 0 c).share 1 = fullShare.right := by
  unfold Dat.share; rw [if_neg (by decide)]; dsimp only [dats]
theorem share_2 (c : Dev nD) : (dats m 0 c).share 2 = fullShare := by
  unfold Dat.share; rw [if_neg (by decide)]; dsimp only [dats]
theorem share_3 (c : Dev nD) : (dats m 0 c).share 3 = fullShare := by
  unfold Dat.share; rw [if_neg (by decide)]; dsimp only [dats]
theorem share_4 (c : Dev nD) : (dats m 0 c).share 4 = fullShare := by
  unfold Dat.share; rw [if_neg (by decide)]; dsimp only [dats]
theorem share_5 (c : Dev nD) : (dats m 0 c).share 5 = fullShare := by
  unfold Dat.share; rw [if_neg (by decide)]; dsimp only [dats]
theorem share_6 (c : Dev nD) : (dats m 0 c).share 6 = fullShare := by
  unfold Dat.share; rw [if_pos (by decide)]

/-- The pipeline's arrays, window by window: the first argument's buffer at a half share for each of windows 0 and 1. -/
theorem arrays_eq (c : Dev nD) (G : (w : Fin cfg0.W) → Buf (Elt F) ((cfg0.win w).arr.view.loc (c : Thread nD τ))) :
    ((dats m 0 c).arrays G : sProp 𝕄)
      = iprop((((c : Thread nD τ).loc main_arg0) ↦{fullShare.left} G 0) ∗ (((c : Thread nD τ).loc main_arg0) ↦{fullShare.right} G 1)
          ∗ (((c : Thread nD τ).loc main_v2) ↦{fullShare} G 2) ∗ (((c : Thread nD τ).loc main_v3) ↦{fullShare} G 3)
          ∗ (((c : Thread nD τ).loc main_v4) ↦{fullShare} G 4) ∗ (((c : Thread nD τ).loc main_v5) ↦{fullShare} G 5)
          ∗ (((c : Thread nD τ).loc main_v6) ↦{fullShare} G 6)) := by
  unfold Dat.arrays
  rw [bigSep_W0]
  rw [share_0, share_1, share_2, share_3, share_4, share_5, share_6]
  rw [(arr_whole0 0).set_eq_univ, (arr_whole0 2).set_eq_univ, (arr_whole0 3).set_eq_univ,
    (arr_whole0 4).set_eq_univ, (arr_whole0 5).set_eq_univ, (arr_whole0 6).set_eq_univ]

/-- An input window's array ends at the region-entry contents. -/
theorem arrAt_in_eq (c : Dev nD) (w : Fin cfg0.W) (hw : (cfg0.win w).isOut = false) (n : ℕ) :
    (dats m 0 c).arrAt w n = V m c (Pipeline.arrRef spec0 w) :=
  ((dats m 0 c).arrAt_in w hw n).trans (A_eq m c w)

/-- ENTRY: the buffers behind the arrays at the region-entry contents are the pipeline's arrays there. -/
theorem arrays_entry (c : Dev nD) :
    (Pipeline.arrBufs spec0 c (V m c) : sProp 𝕄) ⊢ (dats m 0 c).arrays ((dats m 0 c).arrAt · 0) := by
  rw [arrBufs_eq, arrays_eq]
  simp only [show ∀ w, (dats m 0 c).arrAt w 0 = V m c (Pipeline.arrRef spec0 w) from fun w => A_eq m c w]
  iintro ⟨H0, H2, H3, H4, H5, H6⟩
  ihave H0' := (pointsTo_share (PosShare.mem_left_op_right fullShare)).1 $$ H0
  icases H0' with ⟨Hl, Hr⟩
  isplitl [Hl]; · iexact Hl
  isplitl [Hr]; · iexact Hr
  isplitl [H2]; · iexact H2
  isplitl [H3]; · iexact H3
  isplitl [H4]; · iexact H4
  isplitl [H5]; · iexact H5
  iexact H6

/-- EXIT: the pipeline's arrays after the last point are the buffers behind them at the exit valuation. -/
theorem arrays_exit (c : Dev nD) :
    ((dats m 0 c).arrays ((dats m 0 c).arrAt · cfg0.N) : sProp 𝕄) ⊢ Pipeline.arrBufs spec0 c (fun b => V2 m c b) := by
  rw [arrBufs_eq, arrays_eq]
  rw [arrAt_in_eq m c 0 rfl, arrAt_in_eq m c 1 rfl, arrAt_in_eq m c 2 rfl, arrAt_in_eq m c 3 rfl, arrAt_in_eq m c 4 rfl, arrAt_in_eq m c 5 rfl]
  rw [V2_of m c main_arg0 (by decide), V2_of m c main_v2 (by decide), V2_of m c main_v3 (by decide), V2_of m c main_v4 (by decide), V2_of m c main_v5 (by decide)]
  rw [show V2 m c main_v6 = (dats m 0 c).arrAt 6 cfg0.N from by simp only [V2, Function.update_self]]
  iintro ⟨Hl, Hr, H2, H3, H4, H5, H6⟩
  isplitl [Hl Hr]
  · iapply (pointsTo_share (PosShare.mem_left_op_right fullShare)).2
    isplitl [Hl]; · iexact Hl
    iexact Hr
  isplitl [H2]; · iexact H2
  isplitl [H3]; · iexact H3
  isplitl [H4]; · iexact H4
  isplitl [H5]; · iexact H5
  iexact H6

/-- The buffers that bypass the region are not touched by it. -/
theorem rest_exit (c : Dev nD) :
    (Pipeline.unscopedRest spec0 c (V m c) : sProp 𝕄) = Pipeline.unscopedRest spec0 c (fun b => V2 m c b) := by
  rw [unscopedRest0_eq, unscopedRest0_eq]
  rw [V2_of m c main_arg1 (by decide), V2_of m c main_v0 (by decide), V2_of m c main_cst (by decide), V2_of m c main_v1 (by decide),
    V2_of m c main_cst_0 (by decide), V2_of m c main_v7 (by decide), V2_of m c main_cst_1 (by decide), V2_of m c main_v8 (by decide)]

/-! ## The segments -/

/-- What rides beside the buffers: the core owes nothing; the generator register at some state. -/
abbrev Rst (c : Dev nD) : sProp 𝕄 := iprop((∃ W, owes (c : Thread nD τ) (0 : CellTallies nD τ sig Unit) W) ∗ (∃ r, prngReg c r))

/-- The seven host operations before the region, over the unscoped buffers from the launch contents. -/
def seg0 : HostSeg (Ix := Unit) (Name := ℕ) (U := UR sig nD τ) (Lvl := ℕ) (pcfgs (F := F)) defs₀ Variants.none L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) Rst
/-- The four host operations after it, from the exit valuation. -/
def seg2 : HostSeg (Ix := Unit) (Name := ℕ) (U := UR sig nD τ) (Lvl := ℕ) (pcfgs (F := F)) defs₀ Variants.none L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (V2 m) Rst

set_option backward.isDefEq.respectTransparency.types false in
/-- The region. -/
def reg0 : RegionSeg (pcfgs (F := F)) adm (dats m) () defs₀ Variants.none L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (V1 m c) ∗ Rst c)
  post c := iprop(StableHlo.held (c : Thread nD τ) (Pipeline.ucRefs τ sig) (V2 m c) ∗ Rst c)
  X c := iprop(∃ r, prngReg c r)
  Y c := iprop(∃ r, prngReg c r)
  Z c := Pipeline.unscopedRest spec0 c (V m c)
  hentry c := by
    rw [show StableHlo.held (c : Thread nD τ) (Pipeline.ucRefs τ sig) (V1 m c) = unscopedBufs c (V m c) from (Pipeline.unscopedBufs_held c _).symm]
    rw [Pipeline.unscopedBufs_split₀ cfgs 0 winFacts₀0.arr_unscoped c (V m c)]
    iintro ⟨⟨⟨Ha, Hr⟩, HO, Hp⟩, -, -⟩
    ihave Ha' := (arrays_entry m c) $$ Ha
    imodintro
    isplitl [Ha']; · iexact Ha'
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hr
  hin c := (show _ ⊢ (Pipeline.ΦA spec0 c : sProp 𝕄) from by
    unfold Pipeline.ΦA
    iintro ⟨Hp, -, Hr⟩
    isplitl [Hr] <;> iassumption).trans (hin m c)
  hout c := by
    refine (hout m c).trans ?_
    rw [Pipeline.ownSems0_none]; unfold Pipeline.ΦA
    iintro ⟨Hr, Hp⟩
    isplitl [Hp]; · iexact Hp
    isplitr; · iempintro
    iexact Hr
  hexit c := by
    rw [show StableHlo.held (c : Thread nD τ) (Pipeline.ucRefs τ sig) (V2 m c) = unscopedBufs c (fun b => V2 m c b) from (Pipeline.unscopedBufs_held c _).symm]
    rw [Pipeline.unscopedBufs_split₀ cfgs 0 winFacts₀0.arr_unscoped c (fun b => V2 m c b), ← rest_exit m c]
    iintro ⟨Ha, HO, HY, HZ⟩
    ihave Ha' := (arrays_exit m c) $$ Ha
    imodintro
    isplitl [Ha' HZ]
    · isplitl [Ha']; · iexact Ha'
      iexact HZ
    isplitl [HO]
    · unfold Pipeline.Dat.owesAt Pipeline.owesWithin
      icases HO with ⟨%W, -, HO⟩; iexists W; iexact HO
    iexact HY

/-- @main as the list of the three. -/
abbrev segs : List (Seg (pcfgs (F := F)) adm (dats m) () defs₀ Variants.none L lv) := [.host (seg0 m), .region (reg0 m), .host (seg2 m)]

set_option backward.isDefEq.respectTransparency.types false in
/-- At the compiled mesh, for any float values, from any memory with zero counters: every weakly fair execution of
    @main on the TensorCores terminates, the result holding the host tail of the output array the pipeline leaves and
    both arguments their launch contents. -/
theorem run_main : θ_run defs (onTc (τ := τ) (main (F := F))) ⟨m, fun _ => 0, ρ⟩ (fun r => ∀ c : Dev nD,
      r.2.mem ((c.tc : Thread nD τ).loc main_v8) = tailVal ((dats m 0 c).arrAt 6 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (dats m) () cellOf_inj emb₁ defs₀ Variants.none L lv m ρ main (segs m)
    (fun c Q => by rw [main_segs adm (dats m) () Variants.none L lv (seg0 m) (seg2 m) (reg0 m) rfl rfl c])
    (by simp only [Seg.pipes_host, Seg.pipes_region, Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rst c))
    (Tₙ := fun c => iprop(StableHlo.held (c : Thread nD τ) (Pipeline.ucRefs τ sig) (V3 m c) ∗ (∃ r, prngReg c r)))
    (hch := ⟨fun _ => .rfl, fun _ => .rfl, fun _ => .rfl, fun c => by
      show iprop(StableHlo.held (c : Thread nD τ) (Pipeline.ucRefs τ sig) (V3 m c) ∗ Rst c) ⊢ _
      iintro ⟨Hh, HO, Hp⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (V0 m c) from Pipeline.unscopedBufs_held c (V0 m c)]
      iintro ⟨⟨Hh, -, HO, -, Hp, -⟩, -⟩
      imodintro
      isplitl [Hh]; · iexact Hh
      isplitl [HO]; · iexists ∅; iexact HO
      iexists _; iexact Hp)
    (QY := fun c s => s.mem ((c.tc : Thread nD τ).loc main_v8) = tailVal ((dats m 0 c).arrAt 6 cfg0.N)
      ∧ s.mem ((c.tc : Thread nD τ).loc main_arg0) = m ((c.tc : Thread nD τ).loc main_arg0)
      ∧ s.mem ((c.tc : Thread nD τ).loc main_arg1) = m ((c.tc : Thread nD τ).loc main_arg1))
    (hfin := fun c s' => by
      unfold StableHlo.held
      iintro ⟨⟨Hh, -⟩, HSI⟩
      ihave Hr := (pointsTo_read_all (Pipeline.ucRefs τ sig) (fun b => ((c : Thread nD τ).1, b)) (V3 m c) s') $$ [Hh HSI]
      · isplitl [Hh] <;> iassumption
      icases Hr with ⟨%h, HSI⟩
      imodintro
      isplitr
      · ipureintro
        exact ⟨(h (Proc.devRef .tc main_v8) (Finset.mem_filter.mpr ⟨StableHlo.devRef_mem_tcRefs main_v8, by decide⟩)).trans (V3_main_v8 m c),
          (h (Proc.devRef .tc main_arg0) (Finset.mem_filter.mpr ⟨StableHlo.devRef_mem_tcRefs main_arg0, by decide⟩)).trans (V3_main_arg0 m c),
          (h (Proc.devRef .tc main_arg1) (Finset.mem_filter.mpr ⟨StableHlo.devRef_mem_tcRefs main_arg1, by decide⟩)).trans (V3_main_arg1 m c)⟩
      · iexact HSI)
    (hQ := fun _ h => h)

/-- THE FRAME: both arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.KernelIdeal.Hand

end
-- ==== Proof.Spec.lean ====
/-
  The batch-hard triplet loss over the extended reals, as one function of the matrix x (8192 rows of 128 entries) and
  the labels t (8192 words). For rows r and c:
    sqn r      = 0 + sum over k of x r k * x r k                       (the squared norm, as the host sums it)
    dotp r c   = sum over k of x r k * x c k                           (the Gram entry)
    dist a b d = let s = max (a + b - 2 * d) 0; if s > 0 then sqrt (if s > 0 then s else 1) else 0
    cellP r c  = dist (sqn r) (sqn c) (dotp r c) if t r = t c, else minus infinity
    cellN r c  = plus infinity if t r = t c, else that distance
    ap r       = the maximum over c of cellP r c, from minus infinity   (hardest positive)
    an r       = the minimum over c of cellN r c, from plus infinity    (hardest negative)
    loss r     = max (ap r - an r + margin) 0
    total      = (0 + sum over r of loss r) / 8192
  Every literal is kept as the float word both programs print (zero, one, two, the infinities, the margin 0x3E99999A,
  the count 8192.0): the same word on both sides is never evaluated. A maximum or minimum over a row is a
  commutative, associative, idempotent fold, so it may be taken column tile by column tile: `fold_max_union`,
  `fold_min_union` and the block forms below.
-/
import Idealize.ShloMosaic.PureOps.Ideal
import Idealize.ShloMosaic.PureOps.Ideal.Laws
import Idealize.ShloMosaic.PureOps.Vector
import Mathlib.Data.Finset.Fold
import Mathlib.Data.EReal.Basic

noncomputable section

namespace Cert.TripletSpec

open Idealize.ShloMosaic

/-- The float words the two programs share. -/
abbrev zeroW : EReal := Ideal.ofBits .f32 0x00000000#32
abbrev oneW : EReal := Ideal.ofBits .f32 0x3F800000#32
abbrev twoW : EReal := Ideal.ofBits .f32 0x40000000#32
abbrev negInfW : EReal := Ideal.ofBits .f32 0xFF800000#32
abbrev posInfW : EReal := Ideal.ofBits .f32 0x7F800000#32
abbrev marginW : EReal := Ideal.ofBits .f32 0x3E99999A#32
abbrev countW : EReal := Ideal.ofBits .f32 0x46000000#32

variable (x : Fin 8192 → Fin 128 → EReal) (t : Fin 8192 → BitVec 32)

/-- A row's squared norm, as a host sum from zero. -/
def sqn (r : Fin 8192) : EReal := zeroW + ∑ k : Fin 128, x r k * x r k

/-- The Gram entry of rows r and c. -/
def dotp (r c : Fin 8192) : EReal := ∑ k : Fin 128, x r k * x c k

/-- The distance from the two squared norms a, b and the Gram entry d: the clamped squared distance's root, with the
    root taken of one where the clamped value is not positive and the result zero there. -/
def dist (a b d : EReal) : EReal :=
  Scalar.select (Ideal.cmp .ogt (max (a + b - twoW * d) zeroW) zeroW)
    (Ideal.sqrt (Scalar.select (Ideal.cmp .ogt (max (a + b - twoW * d) zeroW) zeroW) (max (a + b - twoW * d) zeroW) oneW))
    zeroW

/-- Whether rows r and c carry one label, as the one-bit word the compare gives. -/
def same (r c : Fin 8192) : BitVec 1 := IntOp.cmpi .eq (t r) (t c)

/-- The distance of rows r and c. -/
def dcell (r c : Fin 8192) : EReal := dist (sqn x r) (sqn x c) (dotp x r c)

/-- The cell of the same-label matrix, and of the other-label matrix. -/
def cellP (r c : Fin 8192) : EReal := Scalar.select (same t r c) (dcell x r c) negInfW
def cellN (r c : Fin 8192) : EReal := Scalar.select (same t r c) posInfW (dcell x r c)

/-- The hardest positive and the hardest negative of row r. -/
def ap (r : Fin 8192) : EReal := (Finset.univ : Finset (Fin 8192)).fold max negInfW (fun c => cellP x t r c)
def an (r : Fin 8192) : EReal := (Finset.univ : Finset (Fin 8192)).fold min posInfW (fun c => cellN x t r c)

/-- Row r's hinge loss. -/
def loss (r : Fin 8192) : EReal := max (ap x t r - an x t r + marginW) zeroW

/-- The mean loss, as the host computes it: the sum from zero, divided by the count. -/
def total : EReal := Ideal.div (zeroW + ∑ r : Fin 8192, loss x t r) countW

/-! ## A row maximum or minimum, tile by tile -/

section Fold

variable {ι : Type} [DecidableEq ι]

/-- The maximum from b over a union is the maximum of the two maxima from b. -/
theorem fold_max_union (b : EReal) (f : ι → EReal) (s u : Finset ι) :
    (s ∪ u).fold max b f = max (s.fold max b f) (u.fold max b f) := by
  refine eq_of_forall_ge_iff fun z => ?_
  simp only [Finset.fold_max_le, max_le_iff, Finset.mem_union]
  constructor
  · rintro ⟨hb, h⟩; exact ⟨⟨hb, fun i hi => h i (.inl hi)⟩, hb, fun i hi => h i (.inr hi)⟩
  · rintro ⟨⟨hb, h1⟩, -, h2⟩; exact ⟨hb, fun i hi => hi.elim (h1 i) (h2 i)⟩

/-- The minimum from b over a union is the minimum of the two minima from b. -/
theorem fold_min_union (b : EReal) (f : ι → EReal) (s u : Finset ι) :
    (s ∪ u).fold min b f = min (s.fold min b f) (u.fold min b f) := by
  refine eq_of_forall_le_iff fun z => ?_
  simp only [Finset.le_fold_min, le_min_iff, Finset.mem_union]
  constructor
  · rintro ⟨hb, h⟩; exact ⟨⟨hb, fun i hi => h i (.inl hi)⟩, hb, fun i hi => h i (.inr hi)⟩
  · rintro ⟨⟨hb, h1⟩, -, h2⟩; exact ⟨hb, fun i hi => hi.elim (h1 i) (h2 i)⟩

/-- Joining the start value in again changes nothing. -/
theorem max_fold_max_self (b : EReal) (f : ι → EReal) (s : Finset ι) : max b (s.fold max b f) = s.fold max b f :=
  max_eq_right ((Finset.le_fold_max b).mpr (.inl le_rfl))
theorem min_fold_min_self (b : EReal) (f : ι → EReal) (s : Finset ι) : min b (s.fold min b f) = s.fold min b f :=
  min_eq_right ((Finset.fold_min_le b).mpr (.inl le_rfl))

end Fold

end Cert.TripletSpec

end
-- ==== Proof.PayloadAt.lean ====
/-
  The kernel body's payloads read at an index, at the ideal instance, over variables of the literal block types:
  x0 (the row tile's 1024 rows), x1 (the column tile's 512 rows), tr / tc (their labels, a column and a row),
  sr / sc (their squared norms, a column and a row).
-/
import proofs.«182006_j26680336843539_1_alg».proof.Proof.Gen.KernelIdeal.Skeleton
import proofs.«182006_j26680336843539_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayloadAt

open Cert.KernelIdeal Cert.KernelIdeal.Gen Cert.TripletSpec
open Idealize.ShloMosaic Idealize.ShloMosaic.ValueIdx

variable (x0 : Vec Ideal S1024x128 .f32) (x1 : Vec Ideal S512x128 .f32) (tr : Vec Ideal S1024x1 .i32) (tc : Vec Ideal S1x512 .i32)
  (sr : Vec Ideal S1024x1 .f32) (sc : Vec Ideal S1x512 .f32)

/-- The tile's distance cell at row p of the row tile and row q of the column tile. -/
def tileDist (p : Fin 1024) (q : Fin 512) : EReal :=
  dist (sr (ix2 p (0 : Fin 1))) (sc (ix2 (0 : Fin 1) q)) (∑ k : Fin 128, x0 (ix2 p k) * x1 (ix2 q k))

/-- Whether those two rows carry one label. -/
def tileSame (p : Fin 1024) (q : Fin 512) : BitVec 1 := IntOp.cmpi .eq (tr (ix2 p (0 : Fin 1))) (tc (ix2 (0 : Fin 1) q))

/-! ## Layout operations the tile reads through -/

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to a column `[a, 1]` reads, at `(i, u)`, the vector at `i`, whatever the unit coordinate. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## A row minimum over one axis -/

/-- A float minimum reduction over one axis, read at the ideal instance: the fold of `min` from the accumulator's value
    over that axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-! ## The tile's Gram entry -/

theorem lhs_gram_0 (i : S1024x512.Idx) (c : dot_S1024x128_S512x128_S1024x512_1_1_0_0_n_n.contr.Idx) :
    (dot_S1024x128_S512x128_S1024x512_1_1_0_0_n_n.lhsIdx i c 0).val = (i 0).val := by
  unfold DotDims.lhsIdx
  rw [dif_neg (show ¬(0 : Fin S1024x128.rank) ∈ dot_S1024x128_S512x128_S1024x512_1_1_0_0_n_n.lhsBatch by decide), dif_pos (show (0 : Fin S1024x128.rank) ∈ dot_S1024x128_S512x128_S1024x512_1_1_0_0_n_n.lhsNonContracting by decide)]
  rfl
theorem lhs_gram_1 (i : S1024x512.Idx) (c : dot_S1024x128_S512x128_S1024x512_1_1_0_0_n_n.contr.Idx) :
    (dot_S1024x128_S512x128_S1024x512_1_1_0_0_n_n.lhsIdx i c 1).val = (c ⟨0, by decide⟩).val :=
  dot_S1024x128_S512x128_S1024x512_1_1_0_0_n_n.lhsIdx_val_of_single rfl i c
theorem rhs_gram_0 (i : S1024x512.Idx) (c : dot_S1024x128_S512x128_S1024x512_1_1_0_0_n_n.contr.Idx) :
    (dot_S1024x128_S512x128_S1024x512_1_1_0_0_n_n.rhsIdx i c 0).val = (i 1).val := by
  unfold DotDims.rhsIdx
  rw [dif_neg (show ¬(0 : Fin S512x128.rank) ∈ dot_S1024x128_S512x128_S1024x512_1_1_0_0_n_n.rhsBatch by decide), dif_pos (show (0 : Fin S512x128.rank) ∈ dot_S1024x128_S512x128_S1024x512_1_1_0_0_n_n.rhsNonContracting by decide)]
  rfl
theorem rhs_gram_1 (i : S1024x512.Idx) (c : dot_S1024x128_S512x128_S1024x512_1_1_0_0_n_n.contr.Idx) :
    (dot_S1024x128_S512x128_S1024x512_1_1_0_0_n_n.rhsIdx i c 1).val = (c ⟨0, by decide⟩).val :=
  dot_S1024x128_S512x128_S1024x512_1_1_0_0_n_n.rhsIdx_val_of_single rfl i c

/-- The product of a 1024-row block and a 512-row block along their 128 columns, into the zero accumulator, read at
    `(p, q)`: the sum over the columns of the two rows' products. -/
theorem gram_at (a : FVec Ideal S1024x128 .bf16) (b : FVec Ideal S512x128 .bf16) (p : Fin 1024) (q : Fin 512) :
    FloatOps.matmul dot_S1024x128_S512x128_S1024x512_1_1_0_0_n_n none a b (constant (F := Ideal) S1024x512 .f32 0x00000000#32) (ix2 p q)
      = ∑ k : Fin 128, a (ix2 p k) * b (ix2 q k) := by
  rw [Ideal.matmul_constant_zero_apply, ← Equiv.sum_comp (contrEquiv1 dot_S1024x128_S512x128_S1024x512_1_1_0_0_n_n 128 rfl rfl).symm]
  refine Finset.sum_congr rfl fun k _ => ?_
  have hk := contrEquiv1_symm_val dot_S1024x128_S512x128_S1024x512_1_1_0_0_n_n 128 rfl rfl k
  have el : dot_S1024x128_S512x128_S1024x512_1_1_0_0_n_n.lhsIdx (ix2 p q) ((contrEquiv1 dot_S1024x128_S512x128_S1024x512_1_1_0_0_n_n 128 rfl rfl).symm k) = ix2 p k := funext fun ax => Fin.ext (by
    match ax with
    | ⟨0, _⟩ => exact lhs_gram_0 _ _
    | ⟨1, _⟩ => exact (lhs_gram_1 _ _).trans hk)
  have er : dot_S1024x128_S512x128_S1024x512_1_1_0_0_n_n.rhsIdx (ix2 p q) ((contrEquiv1 dot_S1024x128_S512x128_S1024x512_1_1_0_0_n_n 128 rfl rfl).symm k) = ix2 q k := funext fun ax => Fin.ext (by
    match ax with
    | ⟨0, _⟩ => exact rhs_gram_0 _ _
    | ⟨1, _⟩ => exact (rhs_gram_1 _ _).trans hk)
  rw [el, er]

theorem pay6_at (p : Fin 1024) (q : Fin 512) : k0_pay6 (F := Ideal) x0 x1 sr sc (ix2 p q) = tileDist x0 x1 sr sc p q := by
  unfold k0_pay6 tileDist
  show dist (broadcastTo S1024x512 (shapeCast S1024x1 sr shapeCasts_S1024x1_S1024x1) broadcasts_S1024x1_S1024x512 (ix2 p q))
      (broadcastTo S1024x512 (shapeCast S1x512 sc shapeCasts_S1x512_S1x512) broadcasts_S1x512_S1024x512 (ix2 p q))
      (FloatOps.matmul dot_S1024x128_S512x128_S1024x512_1_1_0_0_n_n none (truncf .bf16 x0 bitsLt_bf16_f32) (truncf .bf16 x1 bitsLt_bf16_f32)
        (constant (F := Ideal) S1024x512 .f32 0x00000000#32) (ix2 p q)) = _
  rw [shapeCast_self, shapeCast_self, broadcastTo_a1_ab_apply, broadcastTo_1b_ab_apply, gram_at]
  rfl

theorem pay7_at (p : Fin 1024) (q : Fin 512) : k0_pay7 (F := Ideal) tr tc (ix2 p q) = tileSame tr tc p q := by
  unfold k0_pay7 tileSame
  show IntOp.cmpi .eq (broadcastTo S1024x512 (shapeCast S1024x1 tr shapeCasts_S1024x1_S1024x1) broadcasts_S1024x1_S1024x512 (ix2 p q))
      (broadcastTo S1024x512 (shapeCast S1x512 tc shapeCasts_S1x512_S1x512) broadcasts_S1x512_S1024x512 (ix2 p q)) = _
  rw [shapeCast_self, shapeCast_self, broadcastTo_a1_ab_apply, broadcastTo_1b_ab_apply]

theorem pay8_at (p : Fin 1024) (q : Fin 512) :
    k0_pay8 (F := Ideal) x0 x1 sr sc tr tc (ix2 p q) = Scalar.select (tileSame tr tc p q) (tileDist x0 x1 sr sc p q) negInfW := by
  unfold k0_pay8
  show Scalar.select (k0_pay7 (F := Ideal) tr tc (ix2 p q)) (k0_pay6 (F := Ideal) x0 x1 sr sc (ix2 p q)) (Ideal.ofBits .f32 0xFF800000#32) = _
  rw [pay6_at, pay7_at]

theorem pay1_at (v35 : FVec Ideal S1024x512 .f32) (s : Vec Ideal S1024x1 .f32) (p : Fin 1024) :
    k0_pay1 (F := Ideal) v35 s (ix2 p (0 : Fin 1)) = max (s (ix2 p (0 : Fin 1))) ((Finset.univ : Finset (Fin 512)).fold max negInfW (fun q => v35 (ix2 p q))) := by
  unfold k0_pay1
  rw [shapeCast_self]
  show max (s (ix2 p (0 : Fin 1)))
      (shapeCast S1024x1 (multiReduction (F := Ideal) .maximumf [1] S1024 v35 0xFF800000#32 reduces_S1024x512_S1024 (.inl rfl) rfl)
        shapeCasts_S1024_S1024x1 (ix2 p (0 : Fin 1))) = _
  rw [shapeCast_a_a1_apply]
  refine congrArg (max (s (ix2 p (0 : Fin 1)))) ?_
  refine (Ideal.multiReduction_maximumf_single v35 _ reduces_S1024x512_S1024 _ _ (ix1 p)).trans ?_
  refine congrArg (fun f => (Finset.univ : Finset (Fin 512)).fold max negInfW f) (funext fun q => congrArg v35 (funext fun ax => Fin.ext ?_))
  match ax with
  | ⟨0, _⟩ => rfl
  | ⟨1, _⟩ => rfl

theorem pay2_at (v26 : FVec Ideal S1024x512 .f32) (v33 : IVec S1024x512 1) (s : Vec Ideal S1024x1 .f32) (p : Fin 1024) :
    k0_pay2 (F := Ideal) v26 v33 s (ix2 p (0 : Fin 1))
      = min (s (ix2 p (0 : Fin 1))) ((Finset.univ : Finset (Fin 512)).fold min posInfW (fun q => Scalar.select (v33 (ix2 p q)) posInfW (v26 (ix2 p q)))) := by
  unfold k0_pay2
  rw [shapeCast_self]
  show min (s (ix2 p (0 : Fin 1)))
      (shapeCast S1024x1 (multiReduction (F := Ideal) .minimumf [1] S1024
          (select v33 (broadcast S1024x512 (Ideal.ofBits .f32 0x7F800000#32)) v26) 0x7F800000#32 reduces_S1024x512_S1024 (.inl rfl) rfl)
        shapeCasts_S1024_S1024x1 (ix2 p (0 : Fin 1))) = _
  rw [shapeCast_a_a1_apply]
  refine congrArg (min (s (ix2 p (0 : Fin 1)))) ?_
  refine (multiReduction_minimumf_single _ _ reduces_S1024x512_S1024 _ _ (ix1 p)).trans ?_
  refine congrArg (fun f => (Finset.univ : Finset (Fin 512)).fold min posInfW f) (funext fun q => ?_)
  have e : reduces_S1024x512_S1024.lift (ix1 p) q = ix2 p q := funext fun ax => Fin.ext (by
    match ax with
    | ⟨0, _⟩ => rfl
    | ⟨1, _⟩ => rfl)
  show Scalar.select (v33 (reduces_S1024x512_S1024.lift (ix1 p) q)) (Ideal.ofBits .f32 0x7F800000#32) (v26 (reduces_S1024x512_S1024.lift (ix1 p) q)) = _
  rw [e]
  rfl

theorem pay3_at (a b : Vec Ideal S1024x1 .f32) (p : Fin 1024) :
    k0_pay3 (F := Ideal) a b (ix2 p (0 : Fin 1)) = max (a (ix2 p (0 : Fin 1)) - b (ix2 p (0 : Fin 1)) + marginW) zeroW := by
  rfl

theorem pay4_at (p : Fin 1024) : k0_pay4 (F := Ideal) (ix2 p (0 : Fin 1)) = negInfW := by
  rfl

theorem pay5_at (p : Fin 1024) : k0_pay5 (F := Ideal) (ix2 p (0 : Fin 1)) = posInfW := by
  rfl

end Cert.KernelIdeal.PayloadAt

end
-- ==== Proof.TileStep.lean ====
/-
  One grid point folded into the two accumulators, read at a row, at the ideal instance. Point t is row tile t / 16 and
  column tile t % 16: row p of its row tile is row 1024 * (t / 16) + p of the matrix, row q of its column tile is row
  512 * (t % 16) + q. The point joins to the running maximum of row p the maximum over q of the same-label cells
  (row, column), and meets with the running minimum the minimum over q of the other-label cells.
-/
import proofs.«182006_j26680336843539_1_alg».proof.Proof.KI.Data
import proofs.«182006_j26680336843539_1_alg».proof.Proof.PayloadAt
import proofs.«182006_j26680336843539_1_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

noncomputable section

namespace Cert.KernelIdeal.HandValue

open Cert.KernelIdeal Cert.KernelIdeal.Gen Cert.KernelIdeal.Hand Cert.KernelIdeal.PayloadAt Cert.TripletSpec
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

/-- The matrix and the labels of the specification, read off core `c`'s two argument arrays at launch. -/
abbrev matOf (c : Dev nD) : Fin 8192 → Fin 128 → EReal := fun r k => m ((c.tc : Thread nD τ).loc main_arg0) (ix2 r k)
abbrev labOf (c : Dev nD) : Fin 8192 → BitVec 32 := fun r => m ((c.tc : Thread nD τ).loc main_arg1) (ix1 r)

/-- The grid has 128 points. -/
theorem N_eq : cfg0.N = 128 := N_0

/-- Row p of point t's row tile, and row q of its column tile, as rows of the matrix. -/
def rowOf (t : Fin cfg0.N) (p : Fin 1024) : Fin 8192 :=
  ⟨1024 * (t.val / 16) + p.val, by
    have h1 : t.val < 128 := lt_of_lt_of_eq t.isLt N_eq
    have h2 : p.val < 1024 := p.isLt
    omega⟩
def colOf (t : Fin cfg0.N) (q : Fin 512) : Fin 8192 :=
  ⟨512 * (t.val % 16) + q.val, by
    have h2 : q.val < 512 := q.isLt
    omega⟩

/-- The printed index maps over the grid: the row-tile windows sit at block t / 16 of their first axis (the labels' and
    norms' columns too), the column-tile windows at block t % 16 (of their second axis for the labels' and norms' rows). -/
theorem idx_facts : ∀ t : Fin cfg0.N,
    win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val / 16 ∧ win0_2.index t (1 : Fin 2) = 0
    ∧ win0_3.index t (0 : Fin 2) = 0 ∧ win0_3.index t (1 : Fin 2) = t.val % 16
    ∧ win0_4.index t (0 : Fin 2) = t.val / 16 ∧ win0_4.index t (1 : Fin 2) = 0
    ∧ win0_5.index t (0 : Fin 2) = 0 ∧ win0_5.index t (1 : Fin 2) = t.val % 16 :=
  (by decide +kernel : ∀ t : Fin grid0.N, _)

/-! ## The arrays when the region is entered -/

/-- The host's vector of squared norms: each row's sum of squares from zero. -/
abbrev normsOf (x : FVec Ideal S8192x128 .f32) : FVec Ideal S8192 .f32 :=
  Host.reduceAdd (F := Ideal) (mulf x x) (constant (F := Ideal) S_ .f32 0x00000000#32) reducesTo_S8192x128_S8192_d1 h_S_

theorem V_arg0 (c : Dev nD) : (V m c main_arg0 : S8192x128.Idx → EReal) = m ((c.tc : Thread nD τ).loc main_arg0) := by
  dsimp only [V, V1, hostOps0]; after_results <;> rfl

theorem V_v2 (c : Dev nD) : (V m c main_v2 : S8192x1.Idx → BitVec 32) = shapeCast S8192x1 (m ((c.tc : Thread nD τ).loc main_arg1)) shapeCasts_S8192_S8192x1 := by
  dsimp only [V, V1, hostOps0]; after_results <;> rfl

theorem V_v3 (c : Dev nD) : (V m c main_v3 : S1x8192.Idx → BitVec 32) = shapeCast S1x8192 (m ((c.tc : Thread nD τ).loc main_arg1)) shapeCasts_S8192_S1x8192 := by
  dsimp only [V, V1, hostOps0]; after_results <;> rfl

theorem V_v4 (c : Dev nD) : (V m c main_v4 : S8192x1.Idx → EReal) = shapeCast S8192x1 (normsOf (m ((c.tc : Thread nD τ).loc main_arg0))) shapeCasts_S8192_S8192x1 := by
  dsimp only [V, V1, hostOps0]; after_results <;> rfl

theorem V_v5 (c : Dev nD) : (V m c main_v5 : S1x8192.Idx → EReal) = shapeCast S1x8192 (normsOf (m ((c.tc : Thread nD τ).loc main_arg0))) shapeCasts_S8192_S1x8192 := by
  dsimp only [V, V1, hostOps0]; after_results <;> rfl

/-- The host's squared norm of row r is the specification's. -/
theorem normsOf_apply (x : FVec Ideal S8192x128 .f32) (r : Fin 8192) :
    normsOf x (ix1 r) = sqn (fun a k => x (ix2 a k)) r := by
  unfold sqn
  simp only [Host.reduceAdd, Ideal.hostReduceAdd_def]
  rw [Ideal.hostReduceAdd_single reducesTo_S8192x128_S8192_d1 (by decide)]
  refine congrArg (_ + ·) (Finset.sum_congr rfl fun k _ => ?_)
  have e : (by decide : S8192x128.Reduces [1] S8192).lift (ix1 r) k = ix2 r k := funext fun a => Fin.ext (by
    match a with
    | ⟨0, _⟩ => rfl
    | ⟨1, _⟩ => rfl)
  show x _ * x _ = _
  rw [e]; rfl

/-! ## The six blocks at an index -/

theorem xi_at (c : Dev nD) (t : Fin cfg0.N) (p : Fin 1024) (k : Fin 128) :
    bXi (F := Ideal) m c t (ix2 p k) = matOf m c (rowOf t p) k := by
  show V m c main_arg0 (((cfg0.win 0).blk t).view.emb (ix2 p k)) = m ((c.tc : Thread nD τ).loc main_arg0) (ix2 (rowOf t p) k)
  rw [V_arg0]
  obtain ⟨e00, e01, -⟩ := idx_facts t
  refine congrArg (m ((c.tc : Thread nD τ).loc main_arg0)) (funext fun a => Fin.ext ?_)
  match a with
  | ⟨0, _⟩ => show win0_0.index t (0 : Fin 2) * 1024 + 1 * p.val = 1024 * (t.val / 16) + p.val; omega
  | ⟨1, _⟩ => show win0_0.index t (1 : Fin 2) * 128 + 1 * k.val = k.val; omega

theorem xj_at (c : Dev nD) (t : Fin cfg0.N) (q : Fin 512) (k : Fin 128) :
    bXj (F := Ideal) m c t (ix2 q k) = matOf m c (colOf t q) k := by
  show V m c main_arg0 (((cfg0.win 1).blk t).view.emb (ix2 q k)) = m ((c.tc : Thread nD τ).loc main_arg0) (ix2 (colOf t q) k)
  rw [V_arg0]
  obtain ⟨-, -, e10, e11, -⟩ := idx_facts t
  refine congrArg (m ((c.tc : Thread nD τ).loc main_arg0)) (funext fun a => Fin.ext ?_)
  match a with
  | ⟨0, _⟩ => show win0_1.index t (0 : Fin 2) * 512 + 1 * q.val = 512 * (t.val % 16) + q.val; omega
  | ⟨1, _⟩ => show win0_1.index t (1 : Fin 2) * 128 + 1 * k.val = k.val; omega

/-- A vector cast to a column reads, at row i, the vector at i. -/
theorem col_cast_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem tr_at (c : Dev nD) (t : Fin cfg0.N) (p : Fin 1024) :
    bTr (F := Ideal) m c t (ix2 p (0 : Fin 1)) = labOf m c (rowOf t p) := by
  show V m c main_v2 (((cfg0.win 2).blk t).view.emb (ix2 p (0 : Fin 1))) = m ((c.tc : Thread nD τ).loc main_arg1) (ix1 (rowOf t p))
  rw [V_v2]
  obtain ⟨-, -, -, -, e20, e21, -⟩ := idx_facts t
  have e : ((cfg0.win 2).blk t).view.emb (ix2 p (0 : Fin 1)) = ix2 (rowOf t p) (0 : Fin 1) := funext fun a => Fin.ext (by
    match a with
    | ⟨0, _⟩ => show win0_2.index t (0 : Fin 2) * 1024 + 1 * p.val = 1024 * (t.val / 16) + p.val; omega
    | ⟨1, _⟩ => show win0_2.index t (1 : Fin 2) * 1 + 1 * 0 = 0; omega)
  refine (congrArg _ e).trans ?_
  exact col_cast_apply _ _ _ _

theorem tc_at (c : Dev nD) (t : Fin cfg0.N) (q : Fin 512) :
    bTc (F := Ideal) m c t (ix2 (0 : Fin 1) q) = labOf m c (colOf t q) := by
  show V m c main_v3 (((cfg0.win 3).blk t).view.emb (ix2 (0 : Fin 1) q)) = m ((c.tc : Thread nD τ).loc main_arg1) (ix1 (colOf t q))
  rw [V_v3]
  obtain ⟨-, -, -, -, -, -, e30, e31, -⟩ := idx_facts t
  have e : ((cfg0.win 3).blk t).view.emb (ix2 (0 : Fin 1) q) = ix2 (0 : Fin 1) (colOf t q) := funext fun a => Fin.ext (by
    match a with
    | ⟨0, _⟩ => show win0_3.index t (0 : Fin 2) * 1 + 1 * 0 = 0; omega
    | ⟨1, _⟩ => show win0_3.index t (1 : Fin 2) * 512 + 1 * q.val = 512 * (t.val % 16) + q.val; omega)
  refine (congrArg _ e).trans ?_
  exact shapeCast_a_1a_apply _ _ _ _

theorem sr_at (c : Dev nD) (t : Fin cfg0.N) (p : Fin 1024) :
    bSr (F := Ideal) m c t (ix2 p (0 : Fin 1)) = sqn (matOf m c) (rowOf t p) := by
  show V m c main_v4 (((cfg0.win 4).blk t).view.emb (ix2 p (0 : Fin 1))) = _
  rw [V_v4]
  obtain ⟨-, -, -, -, -, -, -, -, e40, e41, -⟩ := idx_facts t
  have e : ((cfg0.win 4).blk t).view.emb (ix2 p (0 : Fin 1)) = ix2 (rowOf t p) (0 : Fin 1) := funext fun a => Fin.ext (by
    match a with
    | ⟨0, _⟩ => show win0_4.index t (0 : Fin 2) * 1024 + 1 * p.val = 1024 * (t.val / 16) + p.val; omega
    | ⟨1, _⟩ => show win0_4.index t (1 : Fin 2) * 1 + 1 * 0 = 0; omega)
  refine (congrArg _ e).trans ?_
  refine (col_cast_apply _ _ _ _).trans ?_
  exact normsOf_apply _ _

theorem sc_at (c : Dev nD) (t : Fin cfg0.N) (q : Fin 512) :
    bSc (F := Ideal) m c t (ix2 (0 : Fin 1) q) = sqn (matOf m c) (colOf t q) := by
  show V m c main_v5 (((cfg0.win 5).blk t).view.emb (ix2 (0 : Fin 1) q)) = _
  rw [V_v5]
  obtain ⟨-, -, -, -, -, -, -, -, -, -, e50, e51⟩ := idx_facts t
  have e : ((cfg0.win 5).blk t).view.emb (ix2 (0 : Fin 1) q) = ix2 (0 : Fin 1) (colOf t q) := funext fun a => Fin.ext (by
    match a with
    | ⟨0, _⟩ => show win0_5.index t (0 : Fin 2) * 1 + 1 * 0 = 0; omega
    | ⟨1, _⟩ => show win0_5.index t (1 : Fin 2) * 512 + 1 * q.val = 512 * (t.val % 16) + q.val; omega)
  refine (congrArg _ e).trans ?_
  refine (shapeCast_a_1a_apply _ _ _ _).trans ?_
  exact normsOf_apply _ _

/-! ## The tile's cells are the matrix's -/

theorem tileDist_at (c : Dev nD) (t : Fin cfg0.N) (p : Fin 1024) (q : Fin 512) :
    tileDist (bXi (F := Ideal) m c t) (bXj (F := Ideal) m c t) (bSr (F := Ideal) m c t) (bSc (F := Ideal) m c t) p q
      = dcell (matOf m c) (rowOf t p) (colOf t q) := by
  unfold tileDist dcell dotp
  rw [sr_at, sc_at]
  refine congrArg (dist _ _) (Finset.sum_congr rfl fun k _ => ?_)
  rw [xi_at, xj_at]

theorem tileSame_at (c : Dev nD) (t : Fin cfg0.N) (p : Fin 1024) (q : Fin 512) :
    tileSame (bTr (F := Ideal) m c t) (bTc (F := Ideal) m c t) p q = same (labOf m c) (rowOf t p) (colOf t q) := by
  unfold tileSame same
  rw [tr_at, tc_at]

/-- One point's fold, at row p of its row tile. -/
theorem step_at (c : Dev nD) (t : Fin cfg0.N) (pr : Vec Ideal S1024x1 .f32 × Vec Ideal S1024x1 .f32) (p : Fin 1024) :
    (accStep (F := Ideal) m c t pr).1 (ix2 p (0 : Fin 1))
        = max (pr.1 (ix2 p (0 : Fin 1))) ((Finset.univ : Finset (Fin 512)).fold max negInfW (fun q => cellP (matOf m c) (labOf m c) (rowOf t p) (colOf t q)))
    ∧ (accStep (F := Ideal) m c t pr).2 (ix2 p (0 : Fin 1))
        = min (pr.2 (ix2 p (0 : Fin 1))) ((Finset.univ : Finset (Fin 512)).fold min posInfW (fun q => cellN (matOf m c) (labOf m c) (rowOf t p) (colOf t q))) := by
  unfold accStep
  constructor
  · refine (pay1_at _ _ p).trans ?_
    refine congrArg (fun f => max (pr.1 (ix2 p (0 : Fin 1))) ((Finset.univ : Finset (Fin 512)).fold max negInfW f)) (funext fun q => ?_)
    rw [pay8_at, tileSame_at, tileDist_at]; rfl
  · refine (pay2_at _ _ _ p).trans ?_
    refine congrArg (fun f => min (pr.2 (ix2 p (0 : Fin 1))) ((Finset.univ : Finset (Fin 512)).fold min posInfW f)) (funext fun q => ?_)
    rw [pay7_at, pay6_at, tileSame_at, tileDist_at]; rfl

end Cert.KernelIdeal.HandValue

end
-- ==== Proof.KernelValue.lean ====
/-
  What the kernel's program computes, at the ideal instance: the host operations after the region applied to the output
  array the pipeline leaves are the specification's mean loss of the first argument (the matrix) and the second (the labels).

  The accumulators are carried by their universal properties: after point t (row tile t / 16, column tile t % 16) the
  running maximum of row p is the least upper bound of minus infinity and the same-label cells of the columns below
  512 * (t % 16 + 1), the running minimum the greatest lower bound of plus infinity and the other-label cells of those
  columns. At column tile 15 every column is below 8192 = 512 * 16, so the pair is (hardest positive, hardest negative)
  of the row, and the point writes the row's hinge loss. The eight points of column tile 15 write back the eight
  row tiles of the output array, which tile it.
-/
import proofs.«182006_j26680336843539_1_alg».proof.Proof.TileStep
import proofs.«182006_j26680336843539_1_alg».proof.Proof.Spec
import Idealize.ShloMosaic.Lib.ValueIdx
import Idealize.ShloMosaic.Lib.Pipeline.Value
import Idealize.ShloMosaic.PureOps.Ideal.Laws
import Mathlib.Data.Finset.Fold
import Mathlib.Order.Basic
import Mathlib.Order.MinMax
import Mathlib.Algebra.BigOperators.Fin

noncomputable section

namespace Cert.KernelIdeal.HandValue

open Cert.KernelIdeal Cert.KernelIdeal.Gen Cert.KernelIdeal.Hand Cert.KernelIdeal.PayloadAt Cert.TripletSpec
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

/-! ## The columns a point sees, and the row it stays on -/

/-- The columns of point t's column tile are those from 512 * (t % 16) up to 512 * (t % 16 + 1). -/
theorem forall_colOf (t : Fin cfg0.N) (P : Fin 8192 → Prop) :
    (∀ q : Fin 512, P (colOf t q))
      ↔ ∀ c' : Fin 8192, 512 * (t.val % 16) ≤ c'.val → c'.val < 512 * (t.val % 16 + 1) → P c' := by
  constructor
  · intro h c' h1 h2
    have e : colOf t ⟨c'.val - 512 * (t.val % 16), by omega⟩ = c' :=
      Fin.ext (by show 512 * (t.val % 16) + (c'.val - 512 * (t.val % 16)) = c'.val; omega)
    exact e ▸ h _
  · intro h q
    have hq : q.val < 512 := q.isLt
    exact h (colOf t q) (by show 512 * (t.val % 16) ≤ 512 * (t.val % 16) + q.val; omega)
      (by show 512 * (t.val % 16) + q.val < 512 * (t.val % 16 + 1); omega)

/-- Within a row tile the row of the matrix does not move with the column tile. -/
theorem rowOf_pred (n : ℕ) (h : n + 1 < cfg0.N) (h0 : (n + 1) % 16 ≠ 0) (p : Fin 1024) :
    rowOf ⟨n, Nat.lt_of_succ_lt h⟩ p = rowOf ⟨n + 1, h⟩ p :=
  Fin.ext (by show 1024 * (n / 16) + p.val = 1024 * ((n + 1) / 16) + p.val; omega)

/-! ## The two accumulators after a point, by their universal properties -/

/-- At column tile 0 the running maximum is the least upper bound of minus infinity and the first 512 columns' cells. -/
theorem accMax_first (c : Dev nD) (p : Fin 1024) (t : ℕ) (h : t < cfg0.N) (h0 : t % 16 = 0) (z : EReal) :
    (accAfter (F := Ideal) m c t h).1 (ix2 p (0 : Fin 1)) ≤ z
      ↔ negInfW ≤ z ∧ ∀ c' : Fin 8192, c'.val < 512 * (t % 16 + 1) →
          cellP (matOf m c) (labOf m c) (rowOf ⟨t, h⟩ p) c' ≤ z := by
  rw [accAfter_first m c t h h0, (step_at m c ⟨t, h⟩ accReset p).1]
  have e : (accReset (F := Ideal)).1 (ix2 p (0 : Fin 1)) = negInfW := pay4_at p
  rw [e, max_le_iff, Finset.fold_max_le]
  constructor
  · rintro ⟨hb, -, hq⟩
    refine ⟨hb, fun c' hc => ?_⟩
    exact (forall_colOf ⟨t, h⟩ (fun c' => cellP (matOf m c) (labOf m c) (rowOf ⟨t, h⟩ p) c' ≤ z)).mp
      (fun q => hq q (Finset.mem_univ q)) c' (by show 512 * (t % 16) ≤ c'.val; omega) hc
  · rintro ⟨hb, hc⟩
    refine ⟨hb, hb, fun q _ => ?_⟩
    exact (forall_colOf ⟨t, h⟩ (fun c' => cellP (matOf m c) (labOf m c) (rowOf ⟨t, h⟩ p) c' ≤ z)).mpr
      (fun c' _ h2 => hc c' h2) q

/-- After point t the running maximum of row p is the least upper bound of minus infinity and the same-label cells of
    the columns below 512 * (t % 16 + 1). -/
theorem accMax_le_iff (c : Dev nD) (p : Fin 1024) : ∀ (t : ℕ) (h : t < cfg0.N) (z : EReal),
    (accAfter (F := Ideal) m c t h).1 (ix2 p (0 : Fin 1)) ≤ z
      ↔ negInfW ≤ z ∧ ∀ c' : Fin 8192, c'.val < 512 * (t % 16 + 1) →
          cellP (matOf m c) (labOf m c) (rowOf ⟨t, h⟩ p) c' ≤ z := by
  intro t
  induction t with
  | zero => intro h z; exact accMax_first m c p 0 h rfl z
  | succ n ih =>
    intro h z
    by_cases h0 : (n + 1) % 16 = 0
    · exact accMax_first m c p (n + 1) h h0 z
    · have ih' := ih (Nat.lt_of_succ_lt h) z
      have e := (step_at m c ⟨n + 1, h⟩ (accAfter (F := Ideal) m c n (Nat.lt_of_succ_lt h)) p).1
      rw [accAfter_next m c (n + 1) h h0]
      show (accStep (F := Ideal) m c ⟨n + 1, h⟩ (accAfter (F := Ideal) m c n (Nat.lt_of_succ_lt h))).1 (ix2 p (0 : Fin 1)) ≤ z ↔ _
      rw [e, max_le_iff, ih', Finset.fold_max_le, rowOf_pred n h h0 p]
      constructor
      · rintro ⟨⟨hb, h1⟩, -, hq⟩
        refine ⟨hb, fun c' hc => ?_⟩
        by_cases hlt : c'.val < 512 * (n % 16 + 1)
        · exact h1 c' hlt
        · exact (forall_colOf ⟨n + 1, h⟩ (fun c' => cellP (matOf m c) (labOf m c) (rowOf ⟨n + 1, h⟩ p) c' ≤ z)).mp
            (fun q => hq q (Finset.mem_univ q)) c' (by show 512 * ((n + 1) % 16) ≤ c'.val; omega) hc
      · rintro ⟨hb, hc⟩
        refine ⟨⟨hb, fun c' h1 => hc c' (by omega)⟩, hb, fun q _ => ?_⟩
        exact (forall_colOf ⟨n + 1, h⟩ (fun c' => cellP (matOf m c) (labOf m c) (rowOf ⟨n + 1, h⟩ p) c' ≤ z)).mpr
          (fun c' _ h2 => hc c' h2) q

/-- At column tile 0 the running minimum is the greatest lower bound of plus infinity and the first 512 columns' cells. -/
theorem accMin_first (c : Dev nD) (p : Fin 1024) (t : ℕ) (h : t < cfg0.N) (h0 : t % 16 = 0) (z : EReal) :
    z ≤ (accAfter (F := Ideal) m c t h).2 (ix2 p (0 : Fin 1))
      ↔ z ≤ posInfW ∧ ∀ c' : Fin 8192, c'.val < 512 * (t % 16 + 1) →
          z ≤ cellN (matOf m c) (labOf m c) (rowOf ⟨t, h⟩ p) c' := by
  rw [accAfter_first m c t h h0, (step_at m c ⟨t, h⟩ accReset p).2]
  have e : (accReset (F := Ideal)).2 (ix2 p (0 : Fin 1)) = posInfW := pay5_at p
  rw [e, le_min_iff, Finset.le_fold_min]
  constructor
  · rintro ⟨hb, -, hq⟩
    refine ⟨hb, fun c' hc => ?_⟩
    exact (forall_colOf ⟨t, h⟩ (fun c' => z ≤ cellN (matOf m c) (labOf m c) (rowOf ⟨t, h⟩ p) c')).mp
      (fun q => hq q (Finset.mem_univ q)) c' (by show 512 * (t % 16) ≤ c'.val; omega) hc
  · rintro ⟨hb, hc⟩
    refine ⟨hb, hb, fun q _ => ?_⟩
    exact (forall_colOf ⟨t, h⟩ (fun c' => z ≤ cellN (matOf m c) (labOf m c) (rowOf ⟨t, h⟩ p) c')).mpr
      (fun c' _ h2 => hc c' h2) q

/-- After point t the running minimum of row p is the greatest lower bound of plus infinity and the other-label cells
    of the columns below 512 * (t % 16 + 1). -/
theorem le_accMin_iff (c : Dev nD) (p : Fin 1024) : ∀ (t : ℕ) (h : t < cfg0.N) (z : EReal),
    z ≤ (accAfter (F := Ideal) m c t h).2 (ix2 p (0 : Fin 1))
      ↔ z ≤ posInfW ∧ ∀ c' : Fin 8192, c'.val < 512 * (t % 16 + 1) →
          z ≤ cellN (matOf m c) (labOf m c) (rowOf ⟨t, h⟩ p) c' := by
  intro t
  induction t with
  | zero => intro h z; exact accMin_first m c p 0 h rfl z
  | succ n ih =>
    intro h z
    by_cases h0 : (n + 1) % 16 = 0
    · exact accMin_first m c p (n + 1) h h0 z
    · have ih' := ih (Nat.lt_of_succ_lt h) z
      have e := (step_at m c ⟨n + 1, h⟩ (accAfter (F := Ideal) m c n (Nat.lt_of_succ_lt h)) p).2
      rw [accAfter_next m c (n + 1) h h0]
      show z ≤ (accStep (F := Ideal) m c ⟨n + 1, h⟩ (accAfter (F := Ideal) m c n (Nat.lt_of_succ_lt h))).2 (ix2 p (0 : Fin 1)) ↔ _
      rw [e, le_min_iff, ih', Finset.le_fold_min, rowOf_pred n h h0 p]
      constructor
      · rintro ⟨⟨hb, h1⟩, -, hq⟩
        refine ⟨hb, fun c' hc => ?_⟩
        by_cases hlt : c'.val < 512 * (n % 16 + 1)
        · exact h1 c' hlt
        · exact (forall_colOf ⟨n + 1, h⟩ (fun c' => z ≤ cellN (matOf m c) (labOf m c) (rowOf ⟨n + 1, h⟩ p) c')).mp
            (fun q => hq q (Finset.mem_univ q)) c' (by show 512 * ((n + 1) % 16) ≤ c'.val; omega) hc
      · rintro ⟨hb, hc⟩
        refine ⟨⟨hb, fun c' h1 => hc c' (by omega)⟩, hb, fun q _ => ?_⟩
        exact (forall_colOf ⟨n + 1, h⟩ (fun c' => z ≤ cellN (matOf m c) (labOf m c) (rowOf ⟨n + 1, h⟩ p) c')).mpr
          (fun c' _ h2 => hc c' h2) q

/-! ## The last column tile: the row's hardest positive and hardest negative, and its hinge loss -/

/-- At column tile 15 the running maximum of row p is the row's hardest positive. -/
theorem accMax_last (c : Dev nD) (t : Fin cfg0.N) (h15 : t.val % 16 = 15) (p : Fin 1024) :
    (accAfter (F := Ideal) m c t.val t.isLt).1 (ix2 p (0 : Fin 1)) = ap (matOf m c) (labOf m c) (rowOf t p) := by
  refine eq_of_forall_ge_iff fun z => ?_
  rw [accMax_le_iff m c p t.val t.isLt z]
  unfold ap
  rw [Finset.fold_max_le]
  constructor
  · rintro ⟨hb, hc⟩; exact ⟨hb, fun c' _ => hc c' (by have := c'.isLt; omega)⟩
  · rintro ⟨hb, hc⟩; exact ⟨hb, fun c' _ => hc c' (Finset.mem_univ c')⟩

/-- At column tile 15 the running minimum of row p is the row's hardest negative. -/
theorem accMin_last (c : Dev nD) (t : Fin cfg0.N) (h15 : t.val % 16 = 15) (p : Fin 1024) :
    (accAfter (F := Ideal) m c t.val t.isLt).2 (ix2 p (0 : Fin 1)) = an (matOf m c) (labOf m c) (rowOf t p) := by
  refine eq_of_forall_le_iff fun z => ?_
  rw [le_accMin_iff m c p t.val t.isLt z]
  unfold an
  rw [Finset.le_fold_min]
  constructor
  · rintro ⟨hb, hc⟩; exact ⟨hb, fun c' _ => hc c' (by have := c'.isLt; omega)⟩
  · rintro ⟨hb, hc⟩; exact ⟨hb, fun c' _ => hc c' (Finset.mem_univ c')⟩

/-- What a point of column tile 15 writes at row p of its block: the hinge loss of the matrix's row. -/
theorem outAt_last (c : Dev nD) (t : Fin cfg0.N) (h15 : t.val % 16 = 15) (p : Fin 1024) :
    outAt (F := Ideal) m c t (ix2 p (0 : Fin 1)) = loss (matOf m c) (labOf m c) (rowOf t p) := by
  unfold outAt
  rw [pay3_at, accMax_last m c t h15 p, accMin_last m c t h15 p]
  rfl

/-! ## From the blocks to the array -/

/-- The array of the rows' hinge losses, a column of 8192. -/
def lossArr (c : Dev nD) : Vec Ideal S8192x1 .f32 :=
  fun i => loss (matOf m c) (labOf m c) ⟨(i 0).val, idx2_lt0 i⟩

/-- The output window's block index at point t: row tile t / 16, the one column. -/
theorem outIndex : ∀ t : Fin cfg0.N, win0_6.index t (0 : Fin 2) = t.val / 16 ∧ win0_6.index t (1 : Fin 2) = 0 :=
  (by decide +kernel : ∀ t : Fin grid0.N, win0_6.index t (0 : Fin 2) = t.val / 16 ∧ win0_6.index t (1 : Fin 2) = 0)

/-- What a point of column tile 15 writes back is its block of the loss array: row p of the block is row
    1024 * (t / 16) + p of the array. -/
theorem flushed_eq (c : Dev nD) (t : Fin cfg0.N) (hf : (cfg0.win 6).flush t = true) :
    (dats (F := Ideal) m 0 c).flushed 6 t = ((cfg0.win 6).blk t).view.read (Elt Ideal) (lossArr m c) := by
  have h15 : t.val % 16 = 15 := (flush0_6 t).mp hf
  obtain ⟨e0, e1⟩ := outIndex t
  show (cfg0.win 6).cut (grid0.coords t) ((dats (F := Ideal) m 0 c).after 6 t) = _
  rw [after_6]
  funext y
  obtain ⟨p, q, rfl⟩ : ∃ (p : Fin 1024) (q : Fin 1), y = ix2 p q := ⟨y 0, y 1, eq_ix2 y⟩
  obtain rfl : q = 0 := Subsingleton.elim _ _
  show outAt (F := Ideal) m c t (ix2 p (0 : Fin 1)) = lossArr m c (((cfg0.win 6).blk t).view.emb (ix2 p (0 : Fin 1)))
  rw [outAt_last m c t h15 p]
  unfold lossArr
  refine congrArg (loss (matOf m c) (labOf m c)) (Fin.ext ?_)
  show 1024 * (t.val / 16) + p.val = win0_6.index t (0 : Fin 2) * 1024 + 1 * p.val
  rw [e0]; omega

/-- An index of the array is in point t's block iff each coordinate is in the block's range on its axis. -/
theorem mem_blk (t : Fin cfg0.N) (i : S8192x1.Idx) :
    i ∈ ((cfg0.win 6).blk t).view.set
      ↔ ∀ a : Fin 2, win0_6.index t a * S1024x1.size a ≤ (i a).val ∧ (i a).val < win0_6.index t a * S1024x1.size a + S1024x1.size a := by
  show i ∈ ((View.whole main_v6).slice (win0_6.rect t)).set ↔ _
  rw [View.set_slice_whole, Rect.mem_set_unit]
  exact Iff.rfl

/-- Row r of the array is in the block the point of column tile 15 of row tile r / 1024 writes back. -/
theorem cover (i : S8192x1.Idx) :
    ∃ t : Fin cfg0.N, (cfg0.win 6).flush t = true ∧ i ∈ ((cfg0.win 6).blk t).view.set := by
  have hN : cfg0.N = 128 := N_eq
  have h0 : (i 0).val < 8192 := idx2_lt0 i
  have h1 : (i 1).val < 1 := idx2_lt1 i
  refine ⟨⟨16 * ((i 0).val / 1024) + 15, by rw [hN]; omega⟩, (flush0_6 _).mpr (by show (16 * ((i 0).val / 1024) + 15) % 16 = 15; omega), ?_⟩
  rw [mem_blk]
  obtain ⟨e0, e1⟩ := outIndex ⟨16 * ((i 0).val / 1024) + 15, by rw [hN]; omega⟩
  intro a
  match a with
  | ⟨0, _⟩ =>
    show win0_6.index _ (0 : Fin 2) * 1024 ≤ (i 0).val ∧ (i 0).val < win0_6.index _ (0 : Fin 2) * 1024 + 1024
    rw [e0]
    show (16 * ((i 0).val / 1024) + 15) / 16 * 1024 ≤ (i 0).val ∧ (i 0).val < (16 * ((i 0).val / 1024) + 15) / 16 * 1024 + 1024
    omega
  | ⟨1, _⟩ =>
    show win0_6.index _ (1 : Fin 2) * 1 ≤ (i 1).val ∧ (i 1).val < win0_6.index _ (1 : Fin 2) * 1 + 1
    rw [e1]; omega

/-- The output array after the run is the loss array. -/
theorem final (c : Dev nD) : (dats (F := Ideal) m 0 c).arrAt 6 cfg0.N = lossArr m c :=
  (dats (F := Ideal) m 0 c).arrAt_eq_of_cover 6 (lossArr m c) (flushed_eq m c) cover

/-- The output array after the run holds each row's hinge loss. -/
theorem out_loss (c : Dev nD) (r : Fin 8192) :
    (dats (F := Ideal) m 0 c).arrAt 6 cfg0.N (ix2 r (0 : Fin 1)) = loss (matOf m c) (labOf m c) r := by
  rw [final m c]
  rfl

/-- The host operations after the region turn it into the mean loss. -/
theorem out_total (c : Dev nD) :
    tailVal (F := Ideal) ((dats (F := Ideal) m 0 c).arrAt 6 cfg0.N) = fun _ => total (matOf m c) (labOf m c) := by
  rw [final m c]
  funext j
  unfold tailVal
  show Ideal.div (Ideal.hostReduceAdd reducesTo_S8192x1_S_d0_1 (lossArr m c) (Ideal.ofBits .f32 0x00000000#32) j)
    (Ideal.ofBits .f32 0x46000000#32) = _
  rw [Ideal.hostReduceAdd_total reducesTo_S8192x1_S_d0_1 (fun b => b.elim0) (lossArr m c) _ j, sum_idx2]
  have e : ∀ a : Fin 8192, ∑ b : Fin 1, lossArr m c (ix2 a b) = loss (matOf m c) (labOf m c) a :=
    fun a => Fin.sum_univ_one _
  rw [Finset.sum_congr rfl (fun a _ => e a)]
  rfl

end Cert.KernelIdeal.HandValue

end
-- ==== Proof.RefValue.lean ====
/-
  The reference's last stage, at the ideal instance, is the specification's mean loss of the matrix and the labels.

  The stages are read one element at a time, from the inputs upward: a row's squared norm, the two broadcasts of it,
  the Gram entry (the transposed right operand read back at the matrix), the clamped squared distance, the guarded
  root (the distance cell), the label mask, the two masked matrices, a row's maximum and minimum as folds over the
  column coordinate, the hinge, and the mean.
-/
import proofs.«182006_j26680336843539_1_alg».proof.Proof.RefRead
import proofs.«182006_j26680336843539_1_alg».proof.Proof.Spec
import Idealize.ShloMosaic.Lib.ValueIdx
import Idealize.ShloMosaic.Lib.ValueIdxRank1
import Idealize.ShloMosaic.PureOps.Reduce
import Idealize.ShloMosaic.PureOps.Ideal.Laws

noncomputable section

namespace Cert.ReferenceIdeal.RefValue

open Cert.ReferenceIdeal Cert.ReferenceIdeal.Gen Cert.ReferenceIdeal.ReadP Cert.TripletSpec
open Idealize.ShloMosaic Idealize.ShloMosaic.ValueIdx

/-- The matrix and the labels of the specification, read off the two argument arrays. -/
abbrev matOf (x0 : (⟨S8192x128, .f32⟩ : BufTy).Contents (Elt Ideal)) : Fin 8192 → Fin 128 → EReal := fun r k => x0 (ix2 r k)
abbrev labOf (x1 : (⟨S8192, .i32⟩ : BufTy).Contents (Elt Ideal)) : Fin 8192 → BitVec 32 := fun r => x1 (ix1 r)

/-! ## The stages' index functions at coordinates -/

/-- Row r's k-th summand of the squared norm sits at (r, k). -/
theorem idx_v1_at (r : Fin 8192) (k : Fin 128) : idx_main_v1 (ix1 r) k = ix2 r k := by
  funext a; match a with | ⟨0, _⟩ => rfl | ⟨1, _⟩ => rfl

/-- The column broadcast of a row vector reads row r at (r, c). -/
theorem idx_v2_v4_at (r c : Fin 8192) : idx_main_v2 (idx_main_v4 (ix2 r c)) = ix1 r := by
  funext a; match a with | ⟨0, _⟩ => rfl

/-- The row broadcast of a row vector reads row c at (r, c). -/
theorem idx_v3_v5_at (r c : Fin 8192) : idx_main_v3 (idx_main_v5 (ix2 r c)) = ix1 c := by
  funext a; match a with | ⟨0, _⟩ => rfl

/-- The Gram entry's left factor at (r, c), k is the matrix at (r, k). -/
theorem lidx_v8_at (r c : Fin 8192) (k : Fin 128) : lidx_main_v8 (ix2 r c) k = ix2 r k := by
  funext a; match a with | ⟨0, _⟩ => rfl | ⟨1, _⟩ => rfl

/-- The Gram entry's right factor at (r, c), k, read through the transpose, is the matrix at (c, k). -/
theorem ridx_v8_at (r c : Fin 8192) (k : Fin 128) : idx_main_v7 (ridx_main_v8 (ix2 r c) k) = ix2 c k := by
  funext a; match a with | ⟨0, _⟩ => rfl | ⟨1, _⟩ => rfl

/-- The labels' column broadcast reads label r at (r, c). -/
theorem idx_v19_v21_at (r c : Fin 8192) : idx_main_v19 (idx_main_v21 (ix2 r c)) = ix1 r := by
  funext a; match a with | ⟨0, _⟩ => rfl

/-- The labels' row broadcast reads label c at (r, c). -/
theorem idx_v20_v22_at (r c : Fin 8192) : idx_main_v20 (idx_main_v22 (ix2 r c)) = ix1 c := by
  funext a; match a with | ⟨0, _⟩ => rfl

/-! ## The distance cell -/

section Cell

variable (x0 : (⟨S8192x128, .f32⟩ : BufTy).Contents (Elt Ideal)) (x1 : (⟨S8192, .i32⟩ : BufTy).Contents (Elt Ideal))

/-- The row sums of the squared entries are the squared norms. -/
theorem v1_at (r : Fin 8192) : val_main_v1 (F := Ideal) x0 (ix1 r) = sqn (matOf x0) r := by
  rw [val_main_v1_apply, val_main_cst_apply, Ideal.ofBits_def]
  unfold sqn
  refine congrArg (zeroW + ·) (Finset.sum_congr rfl fun k _ => ?_)
  rw [val_main_v0_apply, Ideal.mulf_def, idx_v1_at]

/-- Broadcast down the columns: row r's squared norm at (r, c). -/
theorem v4_at (r c : Fin 8192) : val_main_v4 (F := Ideal) x0 (ix2 r c) = sqn (matOf x0) r := by
  rw [val_main_v4_apply, val_main_v2_apply, idx_v2_v4_at, v1_at]

/-- Broadcast along the rows: row c's squared norm at (r, c). -/
theorem v5_at (r c : Fin 8192) : val_main_v5 (F := Ideal) x0 (ix2 r c) = sqn (matOf x0) c := by
  rw [val_main_v5_apply, val_main_v3_apply, idx_v3_v5_at, v1_at]

/-- The product with the transpose is the Gram matrix. -/
theorem v8_at (r c : Fin 8192) : val_main_v8 (F := Ideal) x0 (ix2 r c) = dotp (matOf x0) r c := by
  rw [val_main_v8_apply]
  unfold dotp
  refine Finset.sum_congr rfl fun k _ => ?_
  rw [val_main_v7_apply, lidx_v8_at, ridx_v8_at]

/-- The clamped squared distance. -/
theorem v13_at (r c : Fin 8192) :
    val_main_v13 (F := Ideal) x0 (ix2 r c)
      = max (sqn (matOf x0) r + sqn (matOf x0) c - twoW * dotp (matOf x0) r c) zeroW := by
  rw [val_main_v13_apply, val_main_v11_apply, val_main_v6_apply, val_main_v10_apply, val_main_v12_apply,
    val_main_cst_1_apply, val_main_v9_apply, val_main_cst_0_apply, v4_at, v5_at, v8_at]
  simp only [Ideal.maximumf_def, Ideal.subf_def, Ideal.addf_def, Ideal.mulf_def, Ideal.ofBits_def]

/-- The guarded root of it is the specification's distance cell. -/
theorem v18_at (r c : Fin 8192) : val_main_v18 (F := Ideal) x0 (ix2 r c) = dcell (matOf x0) r c := by
  rw [val_main_v18_apply, val_main_v17_apply, val_main_v16_apply, val_main_v15_apply, val_main_v14_apply,
    val_main_cst_2_apply, val_main_call0_v1_apply, val_main_call0_v0_apply, val_main_cst_3_apply,
    val_main_call1_v1_apply, val_main_call1_v0_apply, val_main_cst_4_apply, v13_at]
  unfold dcell Cert.TripletSpec.dist
  simp only [Ideal.hostUnary_sqrt_def, Ideal.cmpf_def, Ideal.ofBits_def]

/-- The label mask is the specification's compare of the two rows' labels. -/
theorem v23_at (r c : Fin 8192) : val_main_v23 (F := Ideal) x1 (ix2 r c) = same (labOf x1) r c := by
  rw [val_main_v23_apply, val_main_v21_apply, val_main_v19_apply, val_main_v22_apply, val_main_v20_apply,
    idx_v19_v21_at, idx_v20_v22_at]
  rfl

/-- The same-label matrix: the distance where the labels agree, minus infinity elsewhere. -/
theorem v24_at (r c : Fin 8192) :
    val_main_v24 (F := Ideal) x0 x1 (ix2 r c) = cellP (matOf x0) (labOf x1) r c := by
  rw [val_main_v24_apply, val_main_call2_v1_apply, val_main_call2_v0_apply, val_main_cst_5_apply, v23_at, v18_at,
    Ideal.ofBits_def]
  rfl

/-- The other-label matrix: plus infinity where the labels agree, the distance elsewhere. -/
theorem v26_at (r c : Fin 8192) :
    val_main_v26 (F := Ideal) x0 x1 (ix2 r c) = cellN (matOf x0) (labOf x1) r c := by
  rw [val_main_v26_apply, val_main_call3_v1_apply, val_main_call3_v0_apply, val_main_cst_7_apply, v23_at, v18_at,
    Ideal.ofBits_def]
  rfl

end Cell

/-! ## A row's maximum and minimum -/

/-- The source index over row r with column c inserted is (r, c). -/
theorem lift_row_at (h : S8192x8192.Reduces [1] S8192) (r c : Fin 8192) : h.lift (ix1 r) c = ix2 r c := by
  funext a; match a with | ⟨0, _⟩ => exact Fin.ext rfl | ⟨1, _⟩ => exact Fin.ext rfl

theorem reduces_row : S8192x8192.Reduces [1] S8192 := by decide

/-- A maximum over axis 1, read at row r: the fold of max from the start value over the column coordinate. -/
theorem reduce_max_row (y : (⟨S8192x8192, .f32⟩ : BufTy).Contents (Elt Ideal)) (init : (⟨S_, .f32⟩ : BufTy).Contents (Elt Ideal))
    (r : Fin 8192) :
    Host.reduce (FloatOps.maximumf (F := Ideal) (φ := .f32)) y init reducesTo_S8192x8192_S8192_d1 h_S_ (ix1 r)
      = (Finset.univ : Finset (Fin 8192)).fold max (init (Shape.Idx.first h_S_)) (fun c => y (ix2 r c)) := by
  refine (Host.reduce_eq_fold_single (FloatOps.maximumf (F := Ideal) (φ := .f32)) y init reducesTo_S8192x8192_S8192_d1 reduces_row h_S_ (ix1 r)).trans ?_
  have e : (y ∘ reduces_row.lift (ix1 r)) = fun c : Fin 8192 => y (ix2 r c) :=
    funext fun c => congrArg y (lift_row_at reduces_row r c)
  rw [e]
  rfl

/-- A minimum over axis 1, read at row r: the fold of min from the start value over the column coordinate. -/
theorem reduce_min_row (y : (⟨S8192x8192, .f32⟩ : BufTy).Contents (Elt Ideal)) (init : (⟨S_, .f32⟩ : BufTy).Contents (Elt Ideal))
    (r : Fin 8192) :
    Host.reduce (FloatOps.minimumf (F := Ideal) (φ := .f32)) y init reducesTo_S8192x8192_S8192_d1 h_S_ (ix1 r)
      = (Finset.univ : Finset (Fin 8192)).fold min (init (Shape.Idx.first h_S_)) (fun c => y (ix2 r c)) := by
  refine (Host.reduce_eq_fold_single (FloatOps.minimumf (F := Ideal) (φ := .f32)) y init reducesTo_S8192x8192_S8192_d1 reduces_row h_S_ (ix1 r)).trans ?_
  have e : (y ∘ reduces_row.lift (ix1 r)) = fun c : Fin 8192 => y (ix2 r c) :=
    funext fun c => congrArg y (lift_row_at reduces_row r c)
  rw [e]
  rfl

section Rows

variable (x0 : (⟨S8192x128, .f32⟩ : BufTy).Contents (Elt Ideal)) (x1 : (⟨S8192, .i32⟩ : BufTy).Contents (Elt Ideal))

/-- The row maximum of the same-label matrix is the hardest positive. -/
theorem v25_at (r : Fin 8192) : val_main_v25 (F := Ideal) x0 x1 (ix1 r) = ap (matOf x0) (labOf x1) r := by
  unfold val_main_v25
  refine (reduce_max_row _ _ r).trans ?_
  rw [val_main_cst_6_apply, Ideal.ofBits_def]
  unfold ap
  exact congrArg (Finset.fold max negInfW · Finset.univ) (funext fun c => v24_at x0 x1 r c)

/-- The row minimum of the other-label matrix is the hardest negative. -/
theorem v27_at (r : Fin 8192) : val_main_v27 (F := Ideal) x0 x1 (ix1 r) = an (matOf x0) (labOf x1) r := by
  unfold val_main_v27
  refine (reduce_min_row _ _ r).trans ?_
  rw [val_main_cst_8_apply, Ideal.ofBits_def]
  unfold an
  exact congrArg (Finset.fold min posInfW · Finset.univ) (funext fun c => v26_at x0 x1 r c)

/-- The hinge of the difference plus the margin is the row's loss. -/
theorem v31_at (r : Fin 8192) : val_main_v31 (F := Ideal) x0 x1 (ix1 r) = loss (matOf x0) (labOf x1) r := by
  rw [val_main_v31_apply, val_main_v30_apply, val_main_v28_apply, val_main_v29_apply, val_main_cst_9_apply,
    val_main_call4_v0_apply, val_main_call4_cst_apply, v25_at, v27_at]
  unfold loss
  simp only [Ideal.maximumf_def, Ideal.subf_def, Ideal.addf_def, Ideal.ofBits_def]

end Rows

/-! ## The mean -/

theorem ref_total (x0 : (⟨S8192x128, .f32⟩ : BufTy).Contents (Elt Ideal)) (x1 : (⟨S8192, .i32⟩ : BufTy).Contents (Elt Ideal)) :
    val_main_v33 (F := Ideal) x0 x1 = fun _ => total (matOf x0) (labOf x1) := by
  funext i
  rw [val_main_v33_apply, val_main_v32_apply, val_main_cst_10_apply, val_main_cst_11_apply, Ideal.hostDivf_def,
    Ideal.ofBits_def, Ideal.ofBits_def]
  unfold total
  rw [← Equiv.sum_comp (idxEquiv1 (n := 8192)).symm]
  exact congrArg (fun s => Ideal.div (zeroW + s) countW) (Finset.sum_congr rfl fun r _ => v31_at x0 x1 r)

end Cert.ReferenceIdeal.RefValue

end
-- ==== Proof.lean ====
/-
  The batch-hard triplet loss of 8192 rows of a 128-column matrix with integer labels, computed by one tiled kernel
  and by the plain reference, agree over the extended reals.

  Both programs first form each row's squared norm. The reference then builds the full 8192 by 8192 matrix of
  distances d(r, c) = sqrt(max(|r|^2 + |c|^2 - 2 <r, c>, 0)) (the root taken of one, and the result zero, where the
  clamped value is not positive), masks it by label equality into a same-label matrix (minus infinity elsewhere) and an
  other-label matrix (plus infinity on same-label cells), takes each row's maximum of the first and minimum of the
  second, and averages the hinge max(maximum - minimum + margin, 0) over the rows.

  The kernel walks an 8 by 16 grid of tiles: for a row tile of 1024 rows and a column tile of 512 it forms the same
  cells from the two blocks of the matrix (the Gram entries by a matrix product whose operands are rounded to a
  shorter format — the identity over the reals), folds the tile's row maxima and row minima into two running columns
  kept across the sixteen column tiles (reset at the first, read out as the hinge at the last), and the host
  averages the 8192 hinges.

  Over the extended reals the two agree because a row's maximum (minimum) over 8192 columns, from minus (plus)
  infinity, is the maximum (minimum) of its sixteen tile maxima (minima): maximum and minimum are commutative,
  associative and idempotent, so no finiteness is needed and the precondition is never opened. Every float literal
  (zero, one, two, the infinities, the margin, the count) is the same word in both programs.

  The frames: the kernel's two running columns live in scratch memory the invariant tracks point by point; the matrix
  is handed to the pipeline through two windows (row-tile blocks and column-tile blocks of the same array), so the
  pipeline holds that array at two half shares, split at the region's entry and rejoined at its exit.
-/
import proofs.«182006_j26680336843539_1_alg».proof.Defs
import proofs.«182006_j26680336843539_1_alg».proof.Proof.Gen.Kernel
import proofs.«182006_j26680336843539_1_alg».proof.Proof.Gen.KernelIdeal
import proofs.«182006_j26680336843539_1_alg».proof.Proof.Gen.ReferenceIdeal
import proofs.«182006_j26680336843539_1_alg».proof.Proof.Gen.Pre_finite_inputs
import proofs.«182006_j26680336843539_1_alg».proof.Proof.KB.Launch
import proofs.«182006_j26680336843539_1_alg».proof.Proof.KI.Launch
import proofs.«182006_j26680336843539_1_alg».proof.Proof.KernelValue
import proofs.«182006_j26680336843539_1_alg».proof.Proof.RefRun
import proofs.«182006_j26680336843539_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs to the end, faults nowhere, and leaves both arguments as launched. -/
theorem frame_kernel : Cert.frame_Kernel (hKernel := Cert.Kernel.Gen.facts) (hPre_finite_inputs := Cert.Pre_finite_inputs.Gen.facts) :=
  fun m ρ _ => Cert.Kernel.Hand.frame (F := Bits) m ρ

/-- So does its reading over the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- The reference is host operations only: its run, the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.HandRun.run (F := Ideal) m ρ)

/-- From memories agreeing on the matrix and the labels both programs end at the mean hinge loss of them. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => fun _ => Cert.TripletSpec.total (Cert.KernelIdeal.HandValue.matOf m c) (Cert.KernelIdeal.HandValue.labOf m c), ?_, ?_⟩
  · exact (θ_run Cert.KernelIdeal.defs _ _).mono
      (fun _ h c => ⟨(h c).1.trans (Cert.KernelIdeal.HandValue.out_total m c), (h c).2.1, (h c).2.2⟩)
      (Cert.KernelIdeal.Hand.run_main (F := Ideal) m ρ)
  · refine (θ_run Cert.ReferenceIdeal.defs _ _).mono (fun _ h c => ⟨(h c).1.trans ?_, (h c).2.1, (h c).2.2⟩)
      (Cert.ReferenceIdeal.HandRun.run (F := Ideal) m' ρ')
    rw [Cert.ReferenceIdeal.RefValue.ref_total, (hagree c).1, (hagree c).2]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
